-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x256 : Shape := ⟨2, ![128, 256]⟩
abbrev S128 : Shape := ⟨1, ![128]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part4 {F : FTy → Type} [FloatOps F] (main_arg15 : FVec F S128 .f32) (main_arg16 : FVec F S128x128 .f32) (main_arg17 : FVec F S128 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg16
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg17
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  main_v83

def fn_part3 {F : FTy → Type} [FloatOps F] (main_arg12 : FVec F S128 .f32) (main_arg13 : FVec F S128 .f32) (main_arg14 : FVec F S128 .f32) (main_arg15 : FVec F S128 .f32) (main_arg16 : FVec F S128x128 .f32) (main_arg17 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_arg17 main_v63 main_v67

def fn_part2 {F : FTy → Type} [FloatOps F] (main_arg8 : FVec F S128x128 .f32) (main_arg9 : FVec F S128 .f32) (main_arg10 : FVec F S128x256 .f32) (main_arg11 : FVec F S128 .f32) (main_arg12 : FVec F S128 .f32) (main_arg13 : FVec F S128 .f32) (main_arg14 : FVec F S128 .f32) (main_arg15 : FVec F S128 .f32) (main_arg16 : FVec F S128x128 .f32) (main_arg17 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x256 .f32 := Host.absf main_arg10
  let main_cst_16 : FVec F S_ .f32 := constant S_ .f32 0x7F800000#32
  let main_v45 : FVec F S128x256 .f32 := broadcastInDim S128x256 ![] bcast_S_S128x256 main_cst_16
  let main_v46 : IVec S128x256 1 := cmpf .olt main_v44 main_v45
  let main_c_17 : IVec S_ 1 := constantI S_ 1 1#1
  let main_v47 : IVec S_ 1 := (fun x v => Host.reduce IntOp.andi x v reducesTo_S128x256_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_v48 main_v49 main_v50

def fn_part1 {F : FTy → Type} [FloatOps F] (main_arg5 : FVec F S128 .f32) (main_arg6 : FVec F S128 .f32) (main_arg7 : FVec F S128 .f32) (main_arg8 : FVec F S128x128 .f32) (main_arg9 : FVec F S128 .f32) (main_arg10 : FVec F S128x256 .f32) (main_arg11 : FVec F S128 .f32) (main_arg12 : FVec F S128 .f32) (main_arg13 : FVec F S128 .f32) (main_arg14 : FVec F S128 .f32) (main_arg15 : FVec F S128 .f32) (main_arg16 : FVec F S128x128 .f32) (main_arg17 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_v33

def fn {F : FTy → Type} [FloatOps F] (main_arg0 : FVec F S50000x128 .f32) (main_arg1 : IVec S2x600000 32) (main_arg2 : FVec F S128x256 .f32) (main_arg3 : FVec F S128 .f32) (main_arg4 : FVec F S128 .f32) (main_arg5 : FVec F S128 .f32) (main_arg6 : FVec F S128 .f32) (main_arg7 : FVec F S128 .f32) (main_arg8 : FVec F S128x128 .f32) (main_arg9 : FVec F S128 .f32) (main_arg10 : FVec F S128x256 .f32) (main_arg11 : FVec F S128 .f32) (main_arg12 : FVec F S128 .f32) (main_arg13 : FVec F S128 .f32) (main_arg14 : FVec F S128 .f32) (main_arg15 : FVec F S128 .f32) (main_arg16 : FVec F S128x128 .f32) (main_arg17 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_arg17 main_v13 main_v16
-- ==== Kernel.lean ====
abbrev S50000x128 : Shape := ⟨2, ![50000, 128]⟩
abbrev S2x600000 : Shape := ⟨2, ![2, 600000]⟩
abbrev S128x256 : Shape := ⟨2, ![128, 256]⟩
abbrev S128 : Shape := ⟨1, ![128]⟩
abbrev S128x128 : Shape := ⟨2, ![128, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S3000x128 : Shape := ⟨2, ![3000, 128]⟩
abbrev S1x128 : Shape := ⟨2, ![1, 128]⟩
abbrev S50000 : Shape := ⟨1, ![50000]⟩
abbrev S50000x1 : Shape := ⟨2, ![50000, 1]⟩

abbrev nBuf : Space → Nat
  | .hbm => 81
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x256, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x256, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128x128, .f32⟩
  | .hbm, ⟨17, _⟩ => ⟨S128, .f32⟩
  | .hbm, ⟨18, _⟩ => ⟨S1x600000, .i32⟩
  | .hbm, ⟨19, _⟩ => ⟨S600000, .i32⟩
  | .hbm, ⟨20, _⟩ => ⟨S1x600000, .i32⟩
  | .hbm, ⟨21, _⟩ => ⟨S600000, .i32⟩
  | .hbm, ⟨22, _⟩ => ⟨S_, .i32⟩
  | .hbm, ⟨23, _⟩ => ⟨S600000, .i32⟩
  | .hbm, ⟨24, _⟩ => ⟨S600000, .i1⟩
  | .hbm, ⟨25, _⟩ => ⟨S_, .i32⟩
  | .hbm, ⟨26, _⟩ => ⟨S600000, .i32⟩
  | .hbm, ⟨27, _⟩ => ⟨S600000, .i32⟩
  | .hbm, ⟨28, _⟩ => ⟨S600000, .i32⟩
  | .hbm, ⟨29, _⟩ => ⟨S600000x1, .i32⟩
  | .hbm, ⟨30, _⟩ => ⟨S600000x128, .f32⟩
  | .hbm, ⟨31, _⟩ => ⟨S_, .i32⟩
  | .hbm, ⟨32, _⟩ => ⟨S600000, .i32⟩
  | .hbm, ⟨33, _⟩ => ⟨S600000, .i1⟩
  | .hbm, ⟨34, _⟩ => ⟨S_, .i32⟩
  | .hbm, ⟨35, _⟩ => ⟨S600000, .i32⟩
  | .hbm, ⟨36, _⟩ => ⟨S600000, .i32⟩
  | .hbm, ⟨37, _⟩ => ⟨S600000, .i32⟩
  | .hbm, ⟨38, _⟩ => ⟨S600000x1, .i32⟩
  | .hbm, ⟨39, _⟩ => ⟨S600000x128, .f32⟩
  | .hbm, ⟨40, _⟩ => ⟨S600000x128, .f32⟩
  | .hbm, ⟨41, _⟩ => ⟨S_, .f32⟩
  | .hbm, ⟨42, _⟩ => ⟨S50000x128, .f32⟩
  | .hbm, ⟨43, _⟩ => ⟨S600000x1, .i32⟩
  | .hbm, ⟨44, _⟩ => ⟨S50000x128, .f32⟩
  | .hbm, ⟨45, _⟩ => ⟨S_, .f32⟩
  | .hbm, ⟨46, _⟩ => ⟨S50000x128, .f32⟩
  | .hbm, ⟨47, _⟩ => ⟨S50000x128, .f32⟩
  | .hbm, ⟨48, _⟩ => ⟨S50000x128, .f32⟩
  | .hbm, ⟨49, _⟩ => ⟨S_, .f32⟩
  | .hbm, ⟨50, _⟩ => ⟨S50000, .f32⟩
  | .hbm, ⟨51, _⟩ => ⟨S50000x1, .f32⟩
  | .hbm, ⟨52, _⟩ => ⟨S50000x1, .f32⟩
  | .hbm, ⟨53, _⟩ => ⟨S_, .f32⟩
  | .hbm, ⟨54, _⟩ => ⟨S50000x1, .f32⟩
  | .hbm, ⟨55, _⟩ => ⟨S50000x1, .f32⟩
  | .hbm, ⟨56, _⟩ => ⟨S50000x128, .f32⟩
  | .hbm, ⟨57, _⟩ => ⟨S50000x128, .f32⟩
  | .hbm, ⟨58, _⟩ => ⟨S_, .i32⟩
  | .hbm, ⟨59, _⟩ => ⟨S600000, .i32⟩
  | .hbm, ⟨60, _⟩ => ⟨S600000, .i1⟩
  | .hbm, ⟨61, _⟩ => ⟨S_, .i32⟩
  | .hbm, ⟨62, _⟩ => ⟨S600000, .i32⟩
  | .hbm, ⟨63, _⟩ => ⟨S600000, .i32⟩
  | .hbm, ⟨64, _⟩ => ⟨S600000, .i32⟩
  | .hbm, ⟨65, _⟩ => ⟨S600000x1, .i32⟩
  | .hbm, ⟨66, _⟩ => ⟨S600000x128, .f32⟩
  | .hbm, ⟨67, _⟩ => ⟨S_, .i32⟩
  | .hbm, ⟨68, _⟩ => ⟨S600000, .i32⟩
  | .hbm, ⟨69, _⟩ => ⟨S600000, .i1⟩
  | .hbm, ⟨70, _⟩ => ⟨S_, .i32⟩
  | .hbm, ⟨71, _⟩ => ⟨S600000, .i32⟩
  | .hbm, ⟨72, _⟩ => ⟨S600000, .i32⟩
  | .hbm, ⟨73, _⟩ => ⟨S600000, .i32⟩
  | .hbm, ⟨74, _⟩ => ⟨S600000x1, .i32⟩
  | .hbm, ⟨75, _⟩ => ⟨S600000x128, .f32⟩
  | .hbm, ⟨76, _⟩ => ⟨S600000x128, .f32⟩
  | .hbm, ⟨77, _⟩ => ⟨S_, .f32⟩
  | .hbm, ⟨78, _⟩ => ⟨S50000x128, .f32⟩
  | .hbm, ⟨79, _⟩ => ⟨S600000x1, .i32⟩
  | .hbm, ⟨80, _⟩ => ⟨S50000x128, .f32⟩
  | .local _ .vmem, ⟨0, _⟩ => ⟨S3000x128, .f32⟩
  | .local _ .vmem, ⟨1, _⟩ => ⟨S3000x128, .f32⟩
  | .local _ .vmem, ⟨2, _⟩ => ⟨S3000x128, .f32⟩
  | .local _ .vmem, ⟨3, _⟩ => ⟨S3000x128, .f32⟩
  | .local _ .vmem, ⟨4, _⟩ => ⟨S128x256, .f32⟩
  | .local _ .vmem, ⟨5, _⟩ => ⟨S128, .f32⟩
  | .local _ .vmem, ⟨6, _⟩ => ⟨S128, .f32⟩
  | .local _ .vmem, ⟨7, _⟩ => ⟨S128, .f32⟩
  | .local _ .vmem, ⟨8, _⟩ => ⟨S128, .f32⟩
  | .local _ .vmem, ⟨9, _⟩ => ⟨S128, .f32⟩
  | .local _ .vmem, ⟨10, _⟩ => ⟨S128x128, .f32⟩
  | .local _ .vmem, ⟨11, _⟩ => ⟨S128, .f32⟩
  | .local _ .vmem, ⟨12, _⟩ => ⟨S3000x128, .f32⟩
  | .local _ .vmem, ⟨13, _⟩ => ⟨S3000x128, .f32⟩
  | .local _ .vmem, ⟨14, _⟩ => ⟨S3000x128, .f32⟩
  | .local _ .vmem, ⟨15, _⟩ => ⟨S3000x128, .f32⟩
  | .local _ .vmem, ⟨16, _⟩ => ⟨S3000x128, .f32⟩
  | .local _ .vmem, ⟨17, _⟩ => ⟨S3000x128, .f32⟩
  | .local _ .vmem, ⟨18, _⟩ => ⟨S128x256, .f32⟩
  | .local _ .vmem, ⟨19, _⟩ => ⟨S128, .f32⟩
  | .local _ .vmem, ⟨20, _⟩ => ⟨S128, .f32⟩
  | .local _ .vmem, ⟨21, _⟩ => ⟨S128, .f32⟩
  | .local _ .vmem, ⟨22, _⟩ => ⟨S128, .f32⟩
  | .local _ .vmem, ⟨23, _⟩ => ⟨S128, .f32⟩
  | .local _ .vmem, ⟨24, _⟩ => ⟨S128x128, .f32⟩
  | .local _ .vmem, ⟨25, _⟩ => ⟨S128, .f32⟩
  | .local _ .vmem, ⟨26, _⟩ => ⟨S3000x128, .f32⟩
  | .local _ .vmem, ⟨27, _⟩ => ⟨S3000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_c_1 : Ref sig .tc := ⟨.hbm, 31, rfl⟩
abbrev main_v11 : Ref sig .tc := ⟨.hbm, 32, rfl⟩
abbrev main_v12 : Ref sig .tc := ⟨.hbm, 33, rfl⟩
abbrev main_c_2 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_call0_cst : Ref sig .tc := ⟨.hbm, 45, rfl⟩
abbrev main_call0_v0 : Ref sig .tc := ⟨.hbm, 46, rfl⟩
abbrev main_v22 : Ref sig .tc := ⟨.hbm, 47, rfl⟩
abbrev main_call1_v0 : Ref sig .tc := ⟨.hbm, 48, rfl⟩
abbrev main_call1_cst : Ref sig .tc := ⟨.hbm, 49, rfl⟩
abbrev main_call1_v1 : Ref sig .tc := ⟨.hbm, 50, rfl⟩
abbrev main_call1_v2 : Ref sig .tc := ⟨.hbm, 51, rfl⟩
abbrev main_v23 : Ref sig .tc := ⟨.hbm, 52, rfl⟩
abbrev main_cst_3 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_c_4 : Ref sig .tc := ⟨.hbm, 58, rfl⟩
abbrev main_v28 : Ref sig .tc := ⟨.hbm, 59, rfl⟩
abbrev main_v29 : Ref sig .tc := ⟨.hbm, 60, rfl⟩
abbrev main_c_5 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_c_6 : Ref sig .tc := ⟨.hbm, 67, rfl⟩
abbrev main_v35 : Ref sig .tc := ⟨.hbm, 68, rfl⟩
abbrev main_v36 : Ref sig .tc := ⟨.hbm, 69, rfl⟩
abbrev main_c_7 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_cst_8 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg10_0 : Ref sig .tc := ⟨.vmem, 26, rfl⟩
abbrev cc1_stg10_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem10_0 : DmaSem sig := 26
abbrev cc1_sem10_1 : DmaSem sig := 27

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S3000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S3000x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  inb_S3000x128_S3000x128_0_0 : ∀ a, (![0, 0] : Fin 2 → Nat) a + S3000x128.size a ≤ S3000x128.size a
  h_S3000x128 : 0 < S3000x128.numel
  shapeCasts_S3000x128_S3000x128 : S3000x128.ShapeCasts S3000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  slices_S128x256_o0_0_S128x128 : S128x256.Slices ![0, 0] S128x128
  slices_S128x256_o0_128_S128x128 : S128x256.Slices ![0, 128] S128x128
  transposes_S128x128_p1_0_S128x128 : S128x128.Transposes [1, 0] S128x128
  inb_S128_S128_0 : ∀ a, (![0] : Fin 1 → Nat) a + S128.size a ≤ S128.size a
  h_S128 : 0 < S128.numel
  shapeCasts_S128_S1x128 : S128.ShapeCasts S1x128
  broadcasts_S1x128_S3000x128 : S1x128.Broadcasts S3000x128
  inb_S128x128_S128x128_0_0 : ∀ a, (![0, 0] : Fin 2 → Nat) a + S128x128.size a ≤ S128x128.size a
  h_S128x128 : 0 < S128x128.numel
  bcast_S_S50000x128 : S_.BroadcastsInDim S50000x128 (![] : Fin 0 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  gather_S50000x128_S600000x1_S600000x128_1_0_n_n_0_1_1128_wf : GatherDims.WF S50000x128 S600000x1 S600000x128 [1] [0] [] [0] [] 1 ![1, 128]
  dot_S3000x128_S128x128_S3000x128_1_0_0_1_n_n_wf : DotDims.WF S3000x128 S128x128 S3000x128 [1] [0] [0] [1] [] []
  scatter_S50000x128_S600000x1_S600000x128_1_0_0_1_wf : ScatterDims.WF S50000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3000x128.size a ≤ S600000x128.size a
  hwx0_0 : ∀ i : grid0.Coords, EltTy.bits .f32 = 32 ∨ (Rect.block (s := S600000x128) S3000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3000x128.size a ≤ S600000x128.size a
  hwx0_1 : ∀ i : grid0.Coords, EltTy.bits .f32 = 32 ∨ (Rect.block (s := S600000x128) S3000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S3000x128.size a ≤ S600000x128.size a
  hwx0_10 : ∀ i : grid0.Coords, EltTy.bits .f32 = 32 ∨ (Rect.block (s := S600000x128) S3000x128.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3000x128.size a ≤ S600000x128.size a
  hwx1_0 : ∀ i : grid1.Coords, EltTy.bits .f32 = 32 ∨ (Rect.block (s := S600000x128) S3000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3000x128.size a ≤ S600000x128.size a
  hwx1_1 : ∀ i : grid1.Coords, EltTy.bits .f32 = 32 ∨ (Rect.block (s := S600000x128) S3000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S128x256.size a
  hwx1_2 : ∀ i : grid1.Coords, EltTy.bits .f32 = 32 ∨ (Rect.block (s := S128x256) S128x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128.size a ≤ S128.size a
  hwx1_7 : ∀ i : grid1.Coords, EltTy.bits .f32 = 32 ∨ (Rect.block (s := S128) S128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x128.size a ≤ S128x128.size a
  hwx1_8 : ∀ i : grid1.Coords, EltTy.bits .f32 = 32 ∨ (Rect.block (s := S128x128) S128x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128.size a ≤ S128.size a
  hwx1_9 : ∀ i : grid1.Coords, EltTy.bits .f32 = 32 ∨ (Rect.block (s := S128) S128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S3000x128.size a ≤ S600000x128.size a
  hwx1_10 : ∀ i : grid1.Coords, EltTy.bits .f32 = 32 ∨ (Rect.block (s := S600000x128) S3000x128.size (cc1_transform_10 i) (hinb1_10 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S3000x128_S128x128_S3000x128_1_0_0_1_n_n : DotDims S3000x128 S128x128 S3000x128 where
  lhsContracting := [1]
  rhsContracting := [0]
  lhsNonContracting := [0]
  rhsNonContracting := [1]
  lhsBatch := []
  rhsBatch := []
  wf := dot_S3000x128_S128x128_S3000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

abbrev win0_0 : Pipeline.Window sig grid0 :=
  Pipeline.Window.ofSpec (Memref.whole main_v10) S3000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S3000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v18) S3000x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v34) S3000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S3000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg10) S128x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg11) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg12) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg13) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg14) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg15) S128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg16) S128x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg17) S128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v42) S3000x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x256 : Shape := ⟨2, ![128, 256]⟩
abbrev S128 : Shape := ⟨1, ![128]⟩
abbrev S128x128 : Shape := ⟨2, ![128, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S600000x256 : Shape := ⟨2, ![600000, 256]⟩
abbrev S256x128 : Shape := ⟨2, ![256, 128]⟩
abbrev S1x128 : Shape := ⟨2, ![1, 128]⟩
abbrev S50000 : Shape := ⟨1, ![50000]⟩
abbrev S50000x1 : Shape := ⟨2, ![50000, 1]⟩

abbrev nBuf : Space → Nat
  | .hbm => 137
  | .vmem => 0
  | .smem => 0
  | _ => 0

abbrev hbmTy0_0 (i : Nat) : BufTy := match i % 128 with
  | 0 => ⟨S50000x128, .f32⟩
  | 1 => ⟨S2x600000, .i32⟩
  | 2 => ⟨S128x256, .f32⟩
  | 3 => ⟨S128, .f32⟩
  | 4 => ⟨S128, .f32⟩
  | 5 => ⟨S128, .f32⟩
  | 6 => ⟨S128, .f32⟩
  | 7 => ⟨S128, .f32⟩
  | 8 => ⟨S128x128, .f32⟩
  | 9 => ⟨S128, .f32⟩
  | 10 => ⟨S128x256, .f32⟩
  | 11 => ⟨S128, .f32⟩
  | 12 => ⟨S128, .f32⟩
  | 13 => ⟨S128, .f32⟩
  | 14 => ⟨S128, .f32⟩
  | 15 => ⟨S128, .f32⟩
  | 16 => ⟨S128x128, .f32⟩
  | 17 => ⟨S128, .f32⟩
  | 18 => ⟨S1x600000, .i32⟩
  | 19 => ⟨S600000, .i32⟩
  | 20 => ⟨S1x600000, .i32⟩
  | 21 => ⟨S600000, .i32⟩
  | 22 => ⟨S_, .i32⟩
  | 23 => ⟨S600000, .i32⟩
  | 24 => ⟨S600000, .i1⟩
  | 25 => ⟨S_, .i32⟩
  | 26 => ⟨S600000, .i32⟩
  | 27 => ⟨S600000, .i32⟩
  | 28 => ⟨S600000, .i32⟩
  | 29 => ⟨S600000x1, .i32⟩
  | 30 => ⟨S600000x128, .f32⟩
  | 31 => ⟨S_, .i32⟩
  | 32 => ⟨S600000, .i32⟩
  | 33 => ⟨S600000, .i1⟩
  | 34 => ⟨S_, .i32⟩
  | 35 => ⟨S600000, .i32⟩
  | 36 => ⟨S600000, .i32⟩
  | 37 => ⟨S600000, .i32⟩
  | 38 => ⟨S600000x1, .i32⟩
  | 39 => ⟨S600000x128, .f32⟩
  | 40 => ⟨S600000x128, .f32⟩
  | 41 => ⟨S600000x256, .f32⟩
  | 42 => ⟨S256x128, .f32⟩
  | 43 => ⟨S600000x128, .f32⟩
  | 44 => ⟨S1x128, .f32⟩
  | 45 => ⟨S600000x128, .f32⟩
  | 46 => ⟨S600000x128, .f32⟩
  | 47 => ⟨S_, .f32⟩
  | 48 => ⟨S600000x128, .f32⟩
  | 49 => ⟨S600000x128, .f32⟩
  | 50 => ⟨S1x128, .f32⟩
  | 51 => ⟨S600000x128, .f32⟩
  | 52 => ⟨S600000x128, .f32⟩
  | 53 => ⟨S_, .f32⟩
  | 54 => ⟨S128, .f32⟩
  | 55 => ⟨S128, .f32⟩
  | 56 => ⟨S128, .f32⟩
  | 57 => ⟨S128, .f32⟩
  | 58 => ⟨S1x128, .f32⟩
  | 59 => ⟨S600000x128, .f32⟩
  | 60 => ⟨S600000x128, .f32⟩
  | 61 => ⟨S1x128, .f32⟩
  | 62 => ⟨S600000x128, .f32⟩
  | 63 => ⟨S600000x128, .f32⟩
  | 64 => ⟨S128x128, .f32⟩
  | 65 => ⟨S600000x128, .f32⟩
  | 66 => ⟨S1x128, .f32⟩
  | 67 => ⟨S600000x128, .f32⟩
  | 68 => ⟨S600000x128, .f32⟩
  | 69 => ⟨S_, .f32⟩
  | 70 => ⟨S50000x128, .f32⟩
  | 71 => ⟨S600000x1, .i32⟩
  | 72 => ⟨S50000x128, .f32⟩
  | 73 => ⟨S_, .f32⟩
  | 74 => ⟨S50000x128, .f32⟩
  | 75 => ⟨S50000x128, .f32⟩
  | 76 => ⟨S50000x128, .f32⟩
  | 77 => ⟨S_, .f32⟩
  | 78 => ⟨S50000, .f32⟩
  | 79 => ⟨S50000x1, .f32⟩
  | 80 => ⟨S50000x1, .f32⟩
  | 81 => ⟨S_, .f32⟩
  | 82 => ⟨S50000x1, .f32⟩
  | 83 => ⟨S50000x1, .f32⟩
  | 84 => ⟨S50000x128, .f32⟩
  | 85 => ⟨S50000x128, .f32⟩
  | 86 => ⟨S_, .i32⟩
  | 87 => ⟨S600000, .i32⟩
  | 88 => ⟨S600000, .i1⟩
  | 89 => ⟨S_, .i32⟩
  | 90 => ⟨S600000, .i32⟩
  | 91 => ⟨S600000, .i32⟩
  | 92 => ⟨S600000, .i32⟩
  | 93 => ⟨S600000x1, .i32⟩
  | 94 => ⟨S600000x128, .f32⟩
  | 95 => ⟨S_, .i32⟩
  | 96 => ⟨S600000, .i32⟩
  | 97 => ⟨S600000, .i1⟩
  | 98 => ⟨S_, .i32⟩
  | 99 => ⟨S600000, .i32⟩
  | 100 => ⟨S600000, .i32⟩
  | 101 => ⟨S600000, .i32⟩
  | 102 => ⟨S600000x1, .i32⟩
  | 103 => ⟨S600000x128, .f32⟩
  | 104 => ⟨S600000x128, .f32⟩
  | 105 => ⟨S600000x256, .f32⟩
  | 106 => ⟨S256x128, .f32⟩
  | 107 => ⟨S600000x128, .f32⟩
  | 108 => ⟨S1x128, .f32⟩
  | 109 => ⟨S600000x128, .f32⟩
  | 110 => ⟨S600000x128, .f32⟩
  | 111 => ⟨S_, .f32⟩
  | 112 => ⟨S600000x128, .f32⟩
  | 113 => ⟨S600000x128, .f32⟩
  | 114 => ⟨S1x128, .f32⟩
  | 115 => ⟨S600000x128, .f32⟩
  | 116 => ⟨S600000x128, .f32⟩
  | 117 => ⟨S_, .f32⟩
  | 118 => ⟨S128, .f32⟩
  | 119 => ⟨S128, .f32⟩
  | 120 => ⟨S128, .f32⟩
  | 121 => ⟨S128, .f32⟩
  | 122 => ⟨S1x128, .f32⟩
  | 123 => ⟨S600000x128, .f32⟩
  | 124 => ⟨S600000x128, .f32⟩
  | 125 => ⟨S1x128, .f32⟩
  | 126 => ⟨S600000x128, .f32⟩
  | 127 => ⟨S600000x128, .f32⟩
  | _ => ⟨S50000x128, .f32⟩

abbrev hbmTy0_1 (i : Nat) : BufTy := match i % 128 with
  | 0 => ⟨S128x128, .f32⟩
  | 1 => ⟨S600000x128, .f32⟩
  | 2 => ⟨S1x128, .f32⟩
  | 3 => ⟨S600000x128, .f32⟩
  | 4 => ⟨S600000x128, .f32⟩
  | 5 => ⟨S_, .f32⟩
  | 6 => ⟨S50000x128, .f32⟩
  | 7 => ⟨S600000x1, .i32⟩
  | 8 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_c_1 : Ref sig .tc := ⟨.hbm, 31, rfl⟩
abbrev main_v11 : Ref sig .tc := ⟨.hbm, 32, rfl⟩
abbrev main_v12 : Ref sig .tc := ⟨.hbm, 33, rfl⟩
abbrev main_c_2 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_call0_cst : Ref sig .tc := ⟨.hbm, 47, rfl⟩
abbrev main_call0_v0 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_3 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_call1_cst : Ref sig .tc := ⟨.hbm, 73, rfl⟩
abbrev main_call1_v0 : Ref sig .tc := ⟨.hbm, 74, rfl⟩
abbrev main_v47 : Ref sig .tc := ⟨.hbm, 75, rfl⟩
abbrev main_call2_v0 : Ref sig .tc := ⟨.hbm, 76, rfl⟩
abbrev main_call2_cst : Ref sig .tc := ⟨.hbm, 77, rfl⟩
abbrev main_call2_v1 : Ref sig .tc := ⟨.hbm, 78, rfl⟩
abbrev main_call2_v2 : Ref sig .tc := ⟨.hbm, 79, rfl⟩
abbrev main_v48 : Ref sig .tc := ⟨.hbm, 80, rfl⟩
abbrev main_cst_4 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_c_5 : Ref sig .tc := ⟨.hbm, 86, rfl⟩
abbrev main_v53 : Ref sig .tc := ⟨.hbm, 87, rfl⟩
abbrev main_v54 : Ref sig .tc := ⟨.hbm, 88, rfl⟩
abbrev main_c_6 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_c_7 : Ref sig .tc := ⟨.hbm, 95, rfl⟩
abbrev main_v60 : Ref sig .tc := ⟨.hbm, 96, rfl⟩
abbrev main_v61 : Ref sig .tc := ⟨.hbm, 97, rfl⟩
abbrev main_c_8 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_call3_cst : Ref sig .tc := ⟨.hbm, 111, rfl⟩
abbrev main_call3_v0 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_cst_9 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_cst_10 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  concatenates_S600000x128_S600000x128_S600000x256_d1 : Shape.Concatenates [S600000x128, S600000x128] S600000x256 1
  transposes_S128x256_S256x128_1_0 : S128x256.Transposes [1, 0] S256x128
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S600000x128 : S_.BroadcastsInDim S600000x128 (![] : Fin 0 → Fin S600000x128.rank)
  bcast_S_S128 : S_.BroadcastsInDim S128 (![] : Fin 0 → Fin S128.rank)
  transposes_S128x128_S128x128_1_0 : S128x128.Transposes [1, 0] S128x128
  bcast_S_S50000x128 : S_.BroadcastsInDim S50000x128 (![] : Fin 0 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  gather_S50000x128_S600000x1_S600000x128_1_0_n_n_0_1_1128_wf : GatherDims.WF S50000x128 S600000x1 S600000x128 [1] [0] [] [0] [] 1 ![1, 128]
  dot_S600000x256_S256x128_S600000x128_1_0_0_1_n_n_wf : DotDims.WF S600000x256 S256x128 S600000x128 [1] [0] [0] [1] [] []
  dot_S600000x128_S128x128_S600000x128_1_0_0_1_n_n_wf : DotDims.WF S600000x128 S128x128 S600000x128 [1] [0] [0] [1] [] []
  scatter_S50000x128_S600000x1_S600000x128_1_0_0_1_wf : ScatterDims.WF S50000x128 S600000x1 S600000x128 [1] [0] [0] 1

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S600000x256_S256x128_S600000x128_1_0_0_1_n_n : DotDims S600000x256 S256x128 S600000x128 where
  lhsContracting := [1]
  rhsContracting := [0]
  lhsNonContracting := [0]
  rhsNonContracting := [1]
  lhsBatch := []
  rhsBatch := []
  wf := dot_S600000x256_S256x128_S600000x128_1_0_0_1_n_n_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

class Facts : Prop extends Facts₀ where

variable [Facts]
-- ==== Proof.LibPlainDot.lean ====
/-
  A plain matrix product read at coordinates.

  `DotDims.plain M K N` are the dimension numbers of an `M×K` by `K×N` product: the left operand is contracted on its
  second axis, the right on its first, no batch axis. At the ideal instance such a product, whether it is the kernel's
  `tpu.matmul` into a zero accumulator or the host's `dot_general`, is at the output index `(r, c)` the sum over
  `k : Fin K` of `A (r, k) * B (k, c)` on the extended reals: the same sum in the same order on both sides, so the two
  agree wherever their operands do.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable (M K N : Nat)

/-- The left operand's index at output index `j` and contraction position `k` is `(j 0, k)`. -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl j _).trans hk

/-- The right operand's index at output index `j` and contraction position `k` is `(k, j 1)`. -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single (cr := 0) rfl j _).trans hk
  | ⟨1, _⟩ => rfl

/-- The kernel's product into a zero accumulator, at an output index: the sum over the shared axis. -/
theorem matmul_zero_apply (prec : Option ContractPrecision) (A : FVec Ideal ⟨2, ![M, K]⟩ .f32) (B : FVec Ideal ⟨2, ![K, N]⟩ .f32)
    (j : (⟨2, ![M, N]⟩ : Shape).Idx) :
    FloatOps.matmul (DotDims.plain M K N) prec A B (constant ⟨2, ![M, N]⟩ .f32 0x00000000#32) j
      = ∑ k : Fin K, A (ix2 (j 0) k) * B (ix2 k (j 1)) := by
  rw [Ideal.matmul_constant_zero_apply, ← Equiv.sum_comp (contrEquiv1 (DotDims.plain M K N) K rfl rfl).symm]
  refine Finset.sum_congr rfl fun k _ => ?_
  rw [lhsIdx_eq, rhsIdx_eq]
  rfl

/-- The host's product, at an output index: the same sum. -/
theorem dotGeneral_apply (prec : Option ContractPrecision) (sched : HostSchedule) (A : FVec Ideal ⟨2, ![M, K]⟩ .f32)
    (B : FVec Ideal ⟨2, ![K, N]⟩ .f32) (j : (⟨2, ![M, N]⟩ : Shape).Idx) :
    FloatOps.dotGeneral (DotDims.plain M K N) prec sched A B j = ∑ k : Fin K, A (ix2 (j 0) k) * B (ix2 k (j 1)) := by
  rw [Ideal.dotGeneral_apply, ← Equiv.sum_comp (contrEquiv1 (DotDims.plain M K N) K rfl rfl).symm]
  refine Finset.sum_congr rfl fun k _ => ?_
  rw [lhsIdx_eq, rhsIdx_eq]
  rfl

end Idealize.ShloMosaic.PlainDot

end
-- ==== Proof.LibPlainDotAny.lean ====
/-
  A plain matrix product read at coordinates, at any two operand formats.

  At the ideal instance every float format is the extended reals, so an `M×K` by `K×N` product whose operands were
  first narrowed to another format (a kernel that feeds its matrix unit bf16) is still, at the output index `(r, c)`, the
  sum over `k : Fin K` of `A (r, k) * B (k, c)`: for the kernel's product into a zero accumulator and for the host's
  `dot_general` alike, over any dimension record equal to `DotDims.plain M K N`.
-/
import proofs.«103682_j85873576117019_1_alg».proof.Proof.LibPlainDot

noncomputable section

open scoped BigOperators

namespace Idealize.ShloMosaic.PlainDot

open Idealize.ShloMosaic Idealize.ShloMosaic.ValueIdx

variable (M K N : Nat)

/-- The kernel's product into a zero accumulator, at an output index, whatever the operands' formats. -/
theorem matmul_zero_apply_any {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    FloatOps.matmul (DotDims.plain M K N) prec A B (constant ⟨2, ![M, N]⟩ .f32 0x00000000#32) j
      = ∑ k : Fin K, A (ix2 (j 0) k) * B (ix2 k (j 1)) := by
  rw [Ideal.matmul_constant_zero_apply, ← Equiv.sum_comp (contrEquiv1 (DotDims.plain M K N) K rfl rfl).symm]
  refine Finset.sum_congr rfl fun k _ => ?_
  rw [lhsIdx_eq, rhsIdx_eq]
  rfl

/-- The host's product, at an output index, whatever the operands' formats. -/
theorem dotGeneral_apply_any {φ₁ φ₂ : FTy} (prec : Option ContractPrecision) (sched : HostSchedule)
    (A : FVec Ideal ⟨2, ![M, K]⟩ φ₁) (B : FVec Ideal ⟨2, ![K, N]⟩ φ₂) (j : (⟨2, ![M, N]⟩ : Shape).Idx) :
    FloatOps.dotGeneral (DotDims.plain M K N) prec sched A B j = ∑ k : Fin K, A (ix2 (j 0) k) * B (ix2 k (j 1)) := by
  rw [Ideal.dotGeneral_apply, ← Equiv.sum_comp (contrEquiv1 (DotDims.plain M K N) K rfl rfl).symm]
  refine Finset.sum_congr rfl fun k _ => ?_
  rw [lhsIdx_eq, rhsIdx_eq]
  rfl

end Idealize.ShloMosaic.PlainDot

end
-- ==== Proof.LibSideBySide.lean ====
/-
  Two arrays side by side, read at coordinates.

  Concatenating an `[n, a]` array and an `[n, b]` array along the column axis gives an `[n, c]` array, `c = a + b`, whose
  entry `(p, q)` is the left array's `(p, q)` when `q < a` and the right array's `(p, q - a)` otherwise.
-/
import Idealize.ShloMosaic.Lib.Pipeline.Value
import Idealize.ShloMosaic.Lib.ValueIdx

noncomputable section

namespace Idealize.ShloMosaic.SideBySide

open Idealize.ShloMosaic Idealize.ShloMosaic.ValueIdx

variable {α : Type} {n a b c : Nat}

/-- A column of the left part reads the left array. -/
theorem apply_left (A : (⟨2, ![n, a]⟩ : Shape).Idx → α) (B : (⟨2, ![n, b]⟩ : Shape).Idx → α)
    (h : Shape.Concatenates [(⟨2, ![n, a]⟩ : Shape), ⟨2, ![n, b]⟩] ⟨2, ![n, c]⟩ 1) (p : Fin n) (q : Fin c) (hq : q.val < a) :
    concatenate ⟨2, ![n, c]⟩ 1 [⟨⟨2, ![n, a]⟩, A⟩, ⟨⟨2, ![n, b]⟩, B⟩] h (ix2 p q) = A (ix2 p ⟨q.val, hq⟩) :=
  concatenate_pair_apply_left (1 : Fin 2) A B h (ix2 p q) rfl (ix2 p ⟨q.val, hq⟩) (fun ax => by
    match ax with
    | ⟨0, _⟩ => rfl
    | ⟨1, _⟩ => rfl)

/-- A column of the right part reads the right array, the left part's width less. -/
theorem apply_right (A : (⟨2, ![n, a]⟩ : Shape).Idx → α) (B : (⟨2, ![n, b]⟩ : Shape).Idx → α)
    (h : Shape.Concatenates [(⟨2, ![n, a]⟩ : Shape), ⟨2, ![n, b]⟩] ⟨2, ![n, c]⟩ 1) (p : Fin n) (q : Fin c) (hq : a ≤ q.val)
    (hb : q.val - a < b) :
    concatenate ⟨2, ![n, c]⟩ 1 [⟨⟨2, ![n, a]⟩, A⟩, ⟨⟨2, ![n, b]⟩, B⟩] h (ix2 p q) = B (ix2 p ⟨q.val - a, hb⟩) :=
  concatenate_pair_apply_right (1 : Fin 2) A B h (ix2 p q) rfl rfl (ix2 p ⟨q.val - a, hb⟩) (fun ax hax => by
    match ax with
    | ⟨0, _⟩ => rfl
    | ⟨1, _⟩ => exact absurd rfl hax) (by
    show (q.val - a) + a = q.val
    omega)

end Idealize.ShloMosaic.SideBySide

end
-- ==== Proof.LibRowwise.lean ====
/-
  Layers of a network that acts on each row by itself, read along one row.

  An `[R, n]` array is a stack of `R` rows. A product with a fixed `[K, N]` matrix, an entrywise maximum with a constant,
  a block of consecutive columns, and two arrays set side by side all act on every row separately: row `p` of the result
  is a function of row `p` of the operand alone. This file names those four functions of one row (`dense`, `floorAt`,
  `cols`, `join`) and reads the array operations, at the ideal instance, one row at a time. A chain of such layers is then
  read off by rewriting from the outside in, and two programs that tile the rows differently (a kernel that handles a
  block of rows per grid point, a reference that handles all rows at once) meet at the same function of a row.
-/
import Idealize.ShloMosaic.Lib.Pipeline.Value
import Idealize.ShloMosaic.Lib.ValueIdx
import Idealize.ShloMosaic.PureOps.Ideal.Laws
import proofs.«103682_j85873576117019_1_alg».proof.Proof.LibPlainDotAny
import proofs.«103682_j85873576117019_1_alg».proof.Proof.LibSideBySide

noncomputable section

open scoped BigOperators

namespace Idealize.ShloMosaic.Rowwise

open Idealize.ShloMosaic Idealize.ShloMosaic.ValueIdx

/-! ## Functions of one row -/

/-- A row times a matrix: entry `c` is the sum over `k` of `a k * W k c`. -/
def dense {K N : Nat} (a : Fin K → EReal) (W : Fin K → Fin N → EReal) : Fin N → EReal :=
  fun c => ∑ k : Fin K, a k * W k c

/-- Every entry raised to at least `z`. -/
def floorAt {N : Nat} (z : EReal) (a : Fin N → EReal) : Fin N → EReal :=
  fun c => max (a c) z

/-- The `k` consecutive entries of a row that start at `off`. -/
def cols {n : Nat} (off k : Nat) (h : off + k ≤ n) (a : Fin n → EReal) : Fin k → EReal :=
  fun j => a ⟨off + j.val, by have := j.isLt; omega⟩

/-- Two rows end to end. -/
def join {n₁ n₂ n : Nat} (h : n = n₁ + n₂) (a : Fin n₁ → EReal) (b : Fin n₂ → EReal) : Fin n → EReal :=
  fun q => if hq : q.val < n₁ then a ⟨q.val, hq⟩ else b ⟨q.val - n₁, by have := q.isLt; omega⟩

/-! ## Rows of an array, and a matrix by its two coordinates -/

/-- Row `p` of an `[R, n]` array. -/
def row {R n : Nat} (A : (⟨2, ![R, n]⟩ : Shape).Idx → EReal) (p : Fin R) : Fin n → EReal :=
  fun k => A (ix2 p k)

/-- A `[K, N]` array by its two coordinates. -/
def mat {K N : Nat} (B : (⟨2, ![K, N]⟩ : Shape).Idx → EReal) : Fin K → Fin N → EReal :=
  fun k c => B (ix2 k c)

theorem row_apply {R n : Nat} (A : (⟨2, ![R, n]⟩ : Shape).Idx → EReal) (p : Fin R) (k : Fin n) : row A p k = A (ix2 p k) := rfl

/-! ## The array operations, one row at a time -/

/-- A product into a zero accumulator: row `p` of the result is row `p` of the left operand times the right operand. -/
theorem row_matmul {M K N : Nat} {φ₁ φ₂ : FTy} (prec : Option ContractPrecision) (A : FVec Ideal ⟨2, ![M, K]⟩ φ₁)
    (B : FVec Ideal ⟨2, ![K, N]⟩ φ₂) (p : Fin M) :
    row (FloatOps.matmul (DotDims.plain M K N) prec A B (constant ⟨2, ![M, N]⟩ .f32 0x00000000#32)) p
      = dense (row A p) (mat B) := by
  funext c
  exact PlainDot.matmul_zero_apply_any M K N prec A B (ix2 p c)

/-- The host's product: the same function of the row. -/
theorem row_dotGeneral {M K N : Nat} {φ₁ φ₂ : FTy} (prec : Option ContractPrecision) (sched : HostSchedule)
    (A : FVec Ideal ⟨2, ![M, K]⟩ φ₁) (B : FVec Ideal ⟨2, ![K, N]⟩ φ₂) (p : Fin M) :
    row (FloatOps.dotGeneral (DotDims.plain M K N) prec sched A B) p = dense (row A p) (mat B) := by
  funext c
  exact PlainDot.dotGeneral_apply_any M K N prec sched A B (ix2 p c)

/-- An entrywise maximum with an array that holds `z` everywhere. -/
theorem row_maximumf_const {R n : Nat} {φ : FTy} (A Z : FVec Ideal ⟨2, ![R, n]⟩ φ) (z : EReal) (hZ : ∀ i, Z i = z) (p : Fin R) :
    row (maximumf A Z) p = floorAt z (row A p) := by
  funext c
  show max (A (ix2 p c)) (Z (ix2 p c)) = max (A (ix2 p c)) z
  rw [hZ]

/-- A change of float format does nothing at the ideal instance. -/
theorem row_truncf {R n : Nat} {φ ψ : FTy} (A : FVec Ideal ⟨2, ![R, n]⟩ φ) (h : ψ.bits < φ.bits) (p : Fin R) :
    row (truncf ψ A h : FVec Ideal ⟨2, ![R, n]⟩ ψ) p = row A p := rfl

theorem mat_truncf {K N : Nat} {φ ψ : FTy} (B : FVec Ideal ⟨2, ![K, N]⟩ φ) (h : ψ.bits < φ.bits) :
    mat (truncf ψ B h : FVec Ideal ⟨2, ![K, N]⟩ ψ) = mat B := rfl

/-- An entrywise maximum with a scalar repeated over the array. -/
theorem row_maximumf_broadcast {R n : Nat} {φ : FTy} (A : FVec Ideal ⟨2, ![R, n]⟩ φ) (z : Ideal φ) (p : Fin R) :
    row (maximumf A (broadcast ⟨2, ![R, n]⟩ z)) p = floorAt z (row A p) := rfl

/-- An entrywise maximum with a rank-0 constant laid over the array, the host's spelling of the same. -/
theorem row_maximumf_scalarConstant {R n : Nat} (A : FVec Ideal ⟨2, ![R, n]⟩ .f32) (b : BitVec 32)
    (h : (⟨0, ![]⟩ : Shape).BroadcastsInDim ⟨2, ![R, n]⟩ ![]) (p : Fin R) :
    row (maximumf A (broadcastInDim ⟨2, ![R, n]⟩ ![] h (constant (F := Ideal) ⟨0, ![]⟩ .f32 b))) p
      = floorAt (Ideal.ofBits .f32 b) (row A p) := by
  funext c
  show max (A (ix2 p c)) _ = max (A (ix2 p c)) _
  congr 1

/-- A cast of an array to its own shape changes nothing. -/
theorem row_shapeCast_self {R n : Nat} (A : (⟨2, ![R, n]⟩ : Shape).Idx → EReal)
    (h : (⟨2, ![R, n]⟩ : Shape).ShapeCasts ⟨2, ![R, n]⟩) (p : Fin R) :
    row (shapeCast ⟨2, ![R, n]⟩ A h) p = row A p := by
  rw [shapeCast_self]

theorem mat_shapeCast_self {K N : Nat} (B : (⟨2, ![K, N]⟩ : Shape).Idx → EReal)
    (h : (⟨2, ![K, N]⟩ : Shape).ShapeCasts ⟨2, ![K, N]⟩) :
    mat (shapeCast ⟨2, ![K, N]⟩ B h) = mat B := by
  rw [shapeCast_self]

/-- An `[R, 1]` column flattened to an `[R]` vector and stood up again as an `[R, 1]` column is the column it was. -/
theorem row_column_roundtrip {R : Nat} (hR : R ≠ 1) (A : (⟨2, ![R, 1]⟩ : Shape).Idx → EReal)
    (h₁ : (⟨2, ![R, 1]⟩ : Shape).ShapeCasts ⟨1, ![R]⟩)
    (h₂ : (⟨1, ![R]⟩ : Shape).BroadcastsInDim ⟨2, ![R, 1]⟩ ![0]) (p : Fin R) :
    row (broadcastInDim ⟨2, ![R, 1]⟩ ![0] h₂ (shapeCast ⟨1, ![R]⟩ A h₁)) p = row A p := by
  funext k
  show broadcastInDim ⟨2, ![R, 1]⟩ ![0] h₂ (shapeCast ⟨1, ![R]⟩ A h₁) (ix2 p k) = A (ix2 p k)
  rw [broadcastInDim_apply ![0] h₂ _ (ix2 p k) (ix1 p) (fun a => by
    match a with
    | ⟨0, _⟩ => show p.val = if R = 1 then 0 else p.val; rw [if_neg hR])]
  refine shapeCast_apply A h₁ (ix1 p) (ix2 p k) ?_
  rw [Shape.rowMajor_val_two, Shape.rowMajor_val_one]
  show p.val * 1 + k.val = p.val
  have := k.isLt
  omega

/-- A block of `k` columns at `off` lies inside the row. -/
theorem slice_le {R n k off : Nat} (h : (⟨2, ![R, n]⟩ : Shape).Slices ![0, off] ⟨2, ![R, k]⟩) : off + k ≤ n :=
  h.2 1

/-- A block of columns `off ≤ · < off + k` of every row. -/
theorem row_slice {R n k : Nat} (off : Nat) (A : (⟨2, ![R, n]⟩ : Shape).Idx → EReal)
    (h : (⟨2, ![R, n]⟩ : Shape).Slices ![0, off] ⟨2, ![R, k]⟩) (p : Fin R) :
    row (extractStridedSlice ⟨2, ![R, k]⟩ ![0, off] A h) p = cols off k (slice_le h) (row A p) := by
  funext j
  show extractStridedSlice ⟨2, ![R, k]⟩ ![0, off] A h (ix2 p j) = A (ix2 p ⟨off + j.val, _⟩)
  refine extractStridedSlice_apply ![0, off] A h (ix2 p j) _ (fun a => ?_)
  match a with
  | ⟨0, _⟩ => show p.val = 0 + p.val; omega
  | ⟨1, _⟩ => rfl

/-- The joined width is the sum of the two widths. -/
theorem concat_width {R a b c : Nat}
    (h : Shape.Concatenates [(⟨2, ![R, a]⟩ : Shape), ⟨2, ![R, b]⟩] ⟨2, ![R, c]⟩ 1) : c = a + b := by
  have := h.2.2
  simpa using this.symm

/-- Two arrays side by side: every row is the two rows end to end. -/
theorem row_concat {R a b c : Nat} (A : (⟨2, ![R, a]⟩ : Shape).Idx → EReal) (B : (⟨2, ![R, b]⟩ : Shape).Idx → EReal)
    (h : Shape.Concatenates [(⟨2, ![R, a]⟩ : Shape), ⟨2, ![R, b]⟩] ⟨2, ![R, c]⟩ 1) (p : Fin R) :
    row (concatenate ⟨2, ![R, c]⟩ 1 [⟨⟨2, ![R, a]⟩, A⟩, ⟨⟨2, ![R, b]⟩, B⟩] h) p
      = join (concat_width h) (row A p) (row B p) := by
  have hc := concat_width h
  funext q
  unfold join
  by_cases hq : q.val < a
  · rw [dif_pos hq]
    exact SideBySide.apply_left A B h p q hq
  · rw [dif_neg hq]
    exact SideBySide.apply_right A B h p q (by omega) (by have := q.isLt; omega)

end Idealize.ShloMosaic.Rowwise

end
-- ==== Proof.LibKeepdims.lean ====
/-
  Column layouts of a keepdims reduction, read at an index: a length-a vector recast as an [a, 1] column, and an [a, 1]
  column broadcast along the rows of an [a, b] array. (The row forms, [a] → [1, a] and [1, b] → [a, b], are the library's.)
-/
import Idealize.ShloMosaic.Lib.Pipeline.Value
import Idealize.ShloMosaic.Lib.ValueIdx

noncomputable section

namespace Idealize.ShloMosaic.Keepdims

open Idealize.ShloMosaic Idealize.ShloMosaic.ValueIdx

variable {α : Type}

/-- An `[a]` array cast to an `[a, 1]` column reads, at `(i, u)`, the operand at `i`, whatever the unit coordinate `u`:
    both positions are the i-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Keepdims

end
-- ==== Proof.LibRowMaps.lean ====
/-
  Entrywise maps and column layouts, read along one row.

  An entrywise operation on `[R, n]` arrays (a product, sum, difference, quotient, negation, exponential, logistic) acts
  on every row by itself: row `p` of the result is that operation applied entry by entry to row `p` of the operands. A
  scalar repeated over the array gives a constant row. An `[R, 1]` column repeated along the columns of an `[R, n]` array
  gives, in row `p`, the column's entry of row `p` at every position; so does an `[R]` vector stood up as an `[R, 1]`
  column. All at the ideal instance, where the kernel's and the host's spellings of an operation are one function.
-/
import proofs.«103682_j85873576117019_1_alg».proof.Proof.LibRowwise
import proofs.«103682_j85873576117019_1_alg».proof.Proof.LibKeepdims

noncomputable section

namespace Idealize.ShloMosaic.Rowwise

open Idealize.ShloMosaic Idealize.ShloMosaic.ValueIdx

variable {R n : Nat} {φ : FTy}

/-! ## Entrywise operations -/

theorem row_mulf (A B : FVec Ideal ⟨2, ![R, n]⟩ φ) (p : Fin R) :
    row (mulf A B) p = fun q => row A p q * row B p q := rfl

theorem row_addf (A B : FVec Ideal ⟨2, ![R, n]⟩ φ) (p : Fin R) :
    row (addf A B) p = fun q => row A p q + row B p q := rfl

theorem row_subf (A B : FVec Ideal ⟨2, ![R, n]⟩ φ) (p : Fin R) :
    row (subf A B) p = fun q => row A p q - row B p q := rfl

/-- The kernel's quotient. -/
theorem row_divf (A B : FVec Ideal ⟨2, ![R, n]⟩ φ) (p : Fin R) :
    row (divf A B) p = fun q => Ideal.div (row A p q) (row B p q) := rfl

/-- The host's quotient: the same function. -/
theorem row_hostDivf (A B : FVec Ideal ⟨2, ![R, n]⟩ φ) (p : Fin R) :
    row (Host.divf A B) p = fun q => Ideal.div (row A p q) (row B p q) := rfl

theorem row_negf (A : FVec Ideal ⟨2, ![R, n]⟩ φ) (p : Fin R) :
    row (negf A) p = fun q => -(row A p q) := rfl

theorem row_hostNegf (A : FVec Ideal ⟨2, ![R, n]⟩ φ) (p : Fin R) :
    row (Host.negf A) p = fun q => -(row A p q) := rfl

theorem row_exp (A : FVec Ideal ⟨2, ![R, n]⟩ φ) (p : Fin R) :
    row (exp A) p = fun q => Ideal.exp (row A p q) := rfl

theorem row_hostExp (A : FVec Ideal ⟨2, ![R, n]⟩ φ) (p : Fin R) :
    row (Host.exp A) p = fun q => Ideal.exp (row A p q) := rfl

theorem row_logistic (A : FVec Ideal ⟨2, ![R, n]⟩ φ) (p : Fin R) :
    row (logistic A) p = fun q => Ideal.logistic (row A p q) := rfl

/-! ## Constant rows -/

/-- A scalar repeated over the array. -/
theorem row_broadcast (z : Ideal φ) (p : Fin R) : row (broadcast ⟨2, ![R, n]⟩ z) p = fun _ => z := rfl

/-- A rank-0 constant laid over the array, the host's spelling of the same. -/
theorem row_scalarConstant (b : BitVec 32) (h : (⟨0, ![]⟩ : Shape).BroadcastsInDim ⟨2, ![R, n]⟩ ![]) (p : Fin R) :
    row (broadcastInDim ⟨2, ![R, n]⟩ ![] h (constant (F := Ideal) ⟨0, ![]⟩ .f32 b)) p = fun _ => Ideal.ofBits .f32 b := rfl

/-! ## A column repeated along the columns -/

/-- The kernel's broadcast of an `[R, 1]` column to `[R, n]`: row `p` holds the column's entry of row `p` throughout. -/
theorem row_broadcastTo_column (v : (⟨2, ![R, 1]⟩ : Shape).Idx → EReal) (h : (⟨2, ![R, 1]⟩ : Shape).Broadcasts ⟨2, ![R, n]⟩)
    (p : Fin R) : row (broadcastTo ⟨2, ![R, n]⟩ v h) p = fun _ => row v p 0 :=
  funext fun q => Keepdims.broadcastTo_a1_ab_apply v h p q

/-- The host's broadcast of an `[R, 1]` column to `[R, n]`, both axes kept in place. -/
theorem row_broadcastInDim_column (v : (⟨2, ![R, 1]⟩ : Shape).Idx → EReal)
    (h : (⟨2, ![R, 1]⟩ : Shape).BroadcastsInDim ⟨2, ![R, n]⟩ ![0, 1]) (p : Fin R) :
    row (broadcastInDim ⟨2, ![R, n]⟩ ![0, 1] h v) p = fun _ => row v p 0 := by
  funext q
  show broadcastInDim ⟨2, ![R, n]⟩ ![0, 1] h v (ix2 p q) = v (ix2 p 0)
  refine broadcastInDim_apply ![0, 1] h v (ix2 p q) (ix2 p 0) fun a => ?_
  match a with
  | ⟨0, _⟩ =>
    show p.val = if R = 1 then 0 else p.val
    split
    · have := p.isLt; omega
    · rfl
  | ⟨1, _⟩ => rfl

/-- An `[R]` vector stood up as an `[R, 1]` column: row `p` holds the vector's entry `p`. -/
theorem row_vector_as_column (x : (⟨1, ![R]⟩ : Shape).Idx → EReal)
    (h : (⟨1, ![R]⟩ : Shape).BroadcastsInDim ⟨2, ![R, 1]⟩ ![0]) (p : Fin R) :
    row (broadcastInDim ⟨2, ![R, 1]⟩ ![0] h x) p = fun _ => x (ix1 p) := by
  funext q
  show broadcastInDim ⟨2, ![R, 1]⟩ ![0] h x (ix2 p q) = x (ix1 p)
  refine broadcastInDim_apply ![0] h x (ix2 p q) (ix1 p) fun a => ?_
  match a with
  | ⟨0, _⟩ =>
    show p.val = if R = 1 then 0 else p.val
    split
    · have := p.isLt; omega
    · rfl

end Idealize.ShloMosaic.Rowwise

end
-- ==== Proof.LibRowOfVector.lean ====
/-
  A vector recast as a one-row matrix, read at an index.

  Recasting an `[n]` vector as a `[1, n]` array keeps the row-major order, so the entry at `(0, i)` is the vector's
  entry `i`.
-/
import Idealize.ShloMosaic.Lib.ValueIdx
import Idealize.ShloMosaic.Lib.Pipeline.Value

noncomputable section

namespace Idealize.ShloMosaic.RowOfVector

open Idealize.ShloMosaic Idealize.ShloMosaic.ValueIdx

variable {α : Type} {n : Nat}

/-- The one-row recast of a vector at `(0, i)` is the vector at `i`. -/
theorem apply (x : (⟨1, ![n]⟩ : Shape).Idx → α) (h : (⟨1, ![n]⟩ : Shape).ShapeCasts ⟨2, ![1, n]⟩) (i : Fin n) :
    shapeCast (⟨2, ![1, n]⟩ : Shape) x h (ix2 (0 : Fin 1) i) = x (ix1 i) := by
  refine shapeCast_apply x h (ix2 (0 : Fin 1) i) (ix1 i) ?_
  rw [Shape.rowMajor_val_one, Shape.rowMajor_val_two]
  show i.val = 0 * n + i.val
  omega

end Idealize.ShloMosaic.RowOfVector

end
-- ==== Proof.LibRowLayouts.lean ====
/-
  Row layouts and weight layouts, read along one row.

  A one-row array `[1, n]` repeated down the rows of an `[R, n]` array puts that one row in every row, in the kernel's
  spelling and in the host's. A vector `[n]` laid out as a `[1, n]` array holds the vector's entries in its only row.
  The transpose of a matrix swaps its two coordinates, and a block of consecutive rows of a taller matrix shifts the
  row coordinate; together they give the `[K, k]` matrix whose column `c` is row `off + c` of a `[Rows, K]` weight
  (`rowsT`): a torch-style weight `[out, in]`, cut into gates along `out` and applied as `x · Wᵀ`. A block of consecutive
  entries of a row times a matrix is the row times the matching block of the matrix's columns. The hyperbolic tangent
  acts entry by entry.
-/
import proofs.«103682_j85873576117019_1_alg».proof.Proof.LibRowMaps
import proofs.«103682_j85873576117019_1_alg».proof.Proof.LibRowOfVector

noncomputable section

open scoped BigOperators

namespace Idealize.ShloMosaic.Rowwise

open Idealize.ShloMosaic Idealize.ShloMosaic.ValueIdx

variable {R n : Nat} {φ : FTy}

/-! ## The hyperbolic tangent, entry by entry -/

theorem row_tanh (A : FVec Ideal ⟨2, ![R, n]⟩ φ) (p : Fin R) :
    row (tanh A) p = fun q => Ideal.tanh (row A p q) := rfl

theorem row_hostTanh (A : FVec Ideal ⟨2, ![R, n]⟩ φ) (p : Fin R) :
    row (Host.tanh A) p = fun q => Ideal.tanh (row A p q) := rfl

/-! ## One row repeated down the rows -/

/-- A vector's entries by position. -/
def vec (x : (⟨1, ![n]⟩ : Shape).Idx → EReal) : Fin n → EReal := fun q => x (ix1 q)

/-- The kernel's broadcast of a `[1, n]` array to `[R, n]`: every row is the one row. -/
theorem row_broadcastTo_row (v : (⟨2, ![1, n]⟩ : Shape).Idx → EReal)
    (h : (⟨2, ![1, n]⟩ : Shape).Broadcasts ⟨2, ![R, n]⟩) (p : Fin R) :
    row (broadcastTo ⟨2, ![R, n]⟩ v h) p = row v 0 := by
  funext q
  show broadcastTo ⟨2, ![R, n]⟩ v h (ix2 p q) = v (ix2 0 q)
  refine broadcastTo_apply v h (ix2 p q) (ix2 0 q) fun a => ?_
  match a with
  | ⟨0, _⟩ =>
    show (0 : ℕ) = if (1 : ℕ) = 1 then 0 else p.val
    rw [if_pos rfl]
  | ⟨1, _⟩ =>
    show q.val = if n = 1 then 0 else q.val
    split
    · have := q.isLt; omega
    · rfl

/-- The host's broadcast of a `[1, n]` array to `[R, n]`, both axes kept in place: the same. -/
theorem row_broadcastInDim_row (v : (⟨2, ![1, n]⟩ : Shape).Idx → EReal)
    (h : (⟨2, ![1, n]⟩ : Shape).BroadcastsInDim ⟨2, ![R, n]⟩ ![0, 1]) (p : Fin R) :
    row (broadcastInDim ⟨2, ![R, n]⟩ ![0, 1] h v) p = row v 0 := by
  funext q
  show broadcastInDim ⟨2, ![R, n]⟩ ![0, 1] h v (ix2 p q) = v (ix2 0 q)
  refine broadcastInDim_apply ![0, 1] h v (ix2 p q) (ix2 0 q) fun a => ?_
  match a with
  | ⟨0, _⟩ =>
    show (0 : ℕ) = if (1 : ℕ) = 1 then 0 else p.val
    rw [if_pos rfl]
  | ⟨1, _⟩ =>
    show q.val = if n = 1 then 0 else q.val
    split
    · have := q.isLt; omega
    · rfl

/-- The host's layout of an `[n]` vector as a `[1, n]` array, the vector's axis sent to the columns. -/
theorem row_vector_as_row (x : (⟨1, ![n]⟩ : Shape).Idx → EReal)
    (h : (⟨1, ![n]⟩ : Shape).BroadcastsInDim ⟨2, ![1, n]⟩ ![1]) :
    row (broadcastInDim ⟨2, ![1, n]⟩ ![1] h x) 0 = vec x := by
  funext q
  show broadcastInDim ⟨2, ![1, n]⟩ ![1] h x (ix2 0 q) = x (ix1 q)
  refine broadcastInDim_apply ![1] h x (ix2 0 q) (ix1 q) fun a => ?_
  match a with
  | ⟨0, _⟩ =>
    show q.val = if n = 1 then 0 else q.val
    split
    · have := q.isLt; omega
    · rfl

/-- An `[n]` vector recast as a `[1, n]` array: the same row. -/
theorem row_reshape_vector (x : (⟨1, ![n]⟩ : Shape).Idx → EReal) (h : (⟨1, ![n]⟩ : Shape).ShapeCasts ⟨2, ![1, n]⟩) :
    row (shapeCast ⟨2, ![1, n]⟩ x h) 0 = vec x :=
  funext fun q => RowOfVector.apply x h q

/-! ## A weight read by its two coordinates -/

/-- The transpose of a matrix, by coordinates. -/
def matT {N K : Nat} (W : Fin N → Fin K → EReal) : Fin K → Fin N → EReal := fun k c => W c k

/-- The `[K, k]` matrix whose column `c` is row `off + c` of a `[Rows, K]` matrix: the transpose of a block of rows. -/
def rowsT {Rows K : Nat} (off k : Nat) (h : off + k ≤ Rows) (W : Fin Rows → Fin K → EReal) : Fin K → Fin k → EReal :=
  fun kk c => W ⟨off + c.val, by have := c.isLt; omega⟩ kk

/-- The transpose of an `[N, K]` array is read with its coordinates swapped. -/
theorem mat_transpose {N K : Nat} (B : (⟨2, ![N, K]⟩ : Shape).Idx → EReal)
    (h : (⟨2, ![N, K]⟩ : Shape).Transposes [1, 0] ⟨2, ![K, N]⟩) :
    mat (transpose ⟨2, ![K, N]⟩ [1, 0] B h) = matT (mat B) := by
  funext k c
  show transpose ⟨2, ![K, N]⟩ [1, 0] B h (ix2 k c) = B (ix2 c k)
  exact transpose_apply [1, 0] B h (ix2 k c) (ix2 c k) (fun b => match b with
    | ⟨0, _⟩ => rfl
    | ⟨1, _⟩ => rfl)

/-- A block of `k` rows at `off` lies inside the matrix. -/
theorem rowBlock_le {Rows K k off : Nat} (h : (⟨2, ![Rows, K]⟩ : Shape).Slices ![off, 0] ⟨2, ![k, K]⟩) : off + k ≤ Rows :=
  h.2 0

/-- The transpose of the block of rows `off ≤ · < off + k` of a matrix is `rowsT` of the matrix. -/
theorem mat_transpose_rowBlock {Rows K k : Nat} (off : Nat) (B : (⟨2, ![Rows, K]⟩ : Shape).Idx → EReal)
    (hs : (⟨2, ![Rows, K]⟩ : Shape).Slices ![off, 0] ⟨2, ![k, K]⟩)
    (ht : (⟨2, ![k, K]⟩ : Shape).Transposes [1, 0] ⟨2, ![K, k]⟩) :
    mat (transpose ⟨2, ![K, k]⟩ [1, 0] (extractStridedSlice ⟨2, ![k, K]⟩ ![off, 0] B hs) ht)
      = rowsT off k (rowBlock_le hs) (mat B) := by
  rw [mat_transpose]
  funext kk c
  show extractStridedSlice ⟨2, ![k, K]⟩ ![off, 0] B hs (ix2 c kk) = B (ix2 ⟨off + c.val, _⟩ kk)
  refine extractStridedSlice_apply ![off, 0] B hs (ix2 c kk) _ (fun a => ?_)
  match a with
  | ⟨0, _⟩ => rfl
  | ⟨1, _⟩ => show kk.val = 0 + kk.val; omega

/-- A block of consecutive entries of a row times a matrix: the row times that block of the matrix's columns. -/
theorem cols_dense {K N : Nat} (off k : Nat) (h : off + k ≤ N) (a : Fin K → EReal) (W : Fin K → Fin N → EReal) :
    cols off k h (dense a W) = dense a (fun kk c => W kk ⟨off + c.val, by have := c.isLt; omega⟩) := rfl

/-- Columns `off ≤ · < off + k` of the transpose of a `[Rows, K]` matrix are `rowsT` of the matrix. -/
theorem cols_dense_matT {Rows K : Nat} (off k : Nat) (h : off + k ≤ Rows) (a : Fin K → EReal) (W : Fin Rows → Fin K → EReal) :
    cols off k h (dense a (matT W)) = dense a (rowsT off k h W) := rfl

end Idealize.ShloMosaic.Rowwise

end
-- ==== Proof.LibJoinedRow.lean ====
/-
  A joined row times a matrix, a block of a weight's columns transposed, and vectors entry by entry.

  A row joined end to end from two pieces, times a matrix, is the first piece times the matrix's first rows plus the
  second piece times the rest (`dense_join`): one finite sum split at the joint, so it holds on the extended reals with
  no finiteness. It is what makes a layer written as ONE product of the joined row `[a, b]` with a weight equal to the
  same layer written as TWO products over the two blocks of the weight. `colsT` names the block a kernel forms by
  slicing `k` columns of an `[N, Cols]` weight at `off` and transposing them, read by coordinates
  (`mat_transpose_colBlock`). The `vec_*` lemmas read the entrywise operations on a rank-1 array (a product, a sum, the
  reciprocal square root in the kernel's and the host's spelling, a repeated scalar, a rank-0 constant laid along it) at
  the ideal values, one entry at a time. Companions of the row-by-row lemmas of the files this one imports.
-/
import proofs.«103682_j85873576117019_1_alg».proof.Proof.LibRowLayouts

noncomputable section

open scoped BigOperators

namespace Idealize.ShloMosaic.Rowwise

open Idealize.ShloMosaic Idealize.ShloMosaic.ValueIdx

/-! ## A block of a weight's columns, transposed -/

/-- The `[k, N]` matrix whose row `kk` is column `off + kk` of an `[N, Cols]` matrix: the transpose of a block of columns. -/
def colsT {N Cols : Nat} (off k : Nat) (h : off + k ≤ Cols) (W : Fin N → Fin Cols → EReal) : Fin k → Fin N → EReal :=
  fun kk c => W c ⟨off + kk.val, by have := kk.isLt; omega⟩

/-- The transpose of the block of columns `off ≤ · < off + k` of a matrix is `colsT` of the matrix. -/
theorem mat_transpose_colBlock {N Cols k : Nat} (off : Nat) (B : (⟨2, ![N, Cols]⟩ : Shape).Idx → EReal)
    (hs : (⟨2, ![N, Cols]⟩ : Shape).Slices ![0, off] ⟨2, ![N, k]⟩)
    (ht : (⟨2, ![N, k]⟩ : Shape).Transposes [1, 0] ⟨2, ![k, N]⟩) :
    mat (transpose ⟨2, ![k, N]⟩ [1, 0] (extractStridedSlice ⟨2, ![N, k]⟩ ![0, off] B hs) ht)
      = colsT off k (slice_le hs) (mat B) := by
  rw [mat_transpose]
  funext kk c
  show extractStridedSlice ⟨2, ![N, k]⟩ ![0, off] B hs (ix2 c kk) = B (ix2 c ⟨off + kk.val, _⟩)
  refine extractStridedSlice_apply ![0, off] B hs (ix2 c kk) _ (fun a => ?_)
  match a with
  | ⟨0, _⟩ => show c.val = 0 + c.val; omega
  | ⟨1, _⟩ => rfl

/-! ## A joined row times a matrix -/

/-- A row joined from two pieces, times a matrix: the first piece times the matrix's first rows plus the second piece
    times the rest. -/
theorem dense_join {n₁ n₂ n N : Nat} (h : n = n₁ + n₂) (a : Fin n₁ → EReal) (b : Fin n₂ → EReal) (W : Fin n → Fin N → EReal)
    (c : Fin N) :
    dense (join h a b) W c
      = dense a (fun k c => W ⟨k.val, by have := k.isLt; omega⟩ c) c
        + dense b (fun k c => W ⟨n₁ + k.val, by have := k.isLt; omega⟩ c) c := by
  subst h
  unfold dense join
  rw [Fin.sum_univ_add]
  congr 1
  · refine Finset.sum_congr rfl fun i _ => ?_
    have hi : (Fin.castAdd n₂ i).val < n₁ := i.isLt
    rw [dif_pos hi]
    rfl
  · refine Finset.sum_congr rfl fun i _ => ?_
    have hi : ¬ (Fin.natAdd n₁ i).val < n₁ := by show ¬ n₁ + i.val < n₁; omega
    rw [dif_neg hi]
    have e : (⟨(Fin.natAdd n₁ i).val - n₁, by show n₁ + i.val - n₁ < n₂; have := i.isLt; omega⟩ : Fin n₂) = i :=
      Fin.ext (by show n₁ + i.val - n₁ = i.val; omega)
    rw [e]
    rfl

/-! ## Vectors, entry by entry -/

variable {n : Nat} {φ : FTy}

theorem vec_mulf (a b : FVec Ideal ⟨1, ![n]⟩ φ) : vec (mulf a b) = fun q => vec a q * vec b q := rfl

theorem vec_addf (a b : FVec Ideal ⟨1, ![n]⟩ φ) : vec (addf a b) = fun q => vec a q + vec b q := rfl

/-- The kernel's reciprocal square root. -/
theorem vec_rsqrt (a : FVec Ideal ⟨1, ![n]⟩ φ) : vec (rsqrt a) = fun q => Ideal.rsqrt (vec a q) := rfl

/-- The host's reciprocal square root: the same function. -/
theorem vec_hostRsqrt (a : FVec Ideal ⟨1, ![n]⟩ φ) : vec (Host.rsqrt a) = fun q => Ideal.rsqrt (vec a q) := rfl

/-- A scalar repeated along a vector. -/
theorem vec_broadcast (z : Ideal φ) : vec (broadcast ⟨1, ![n]⟩ z) = fun _ => z := rfl

/-- A rank-0 constant laid along a vector, the host's spelling of the same. -/
theorem vec_scalarConstant (b : BitVec 32) (h : (⟨0, ![]⟩ : Shape).BroadcastsInDim ⟨1, ![n]⟩ ![]) :
    vec (broadcastInDim ⟨1, ![n]⟩ ![] h (constant (F := Ideal) ⟨0, ![]⟩ .f32 b)) = fun _ => Ideal.ofBits .f32 b := rfl

end Idealize.ShloMosaic.Rowwise

end
-- ==== Proof.EdgeRow.lean ====
/-
  One edge's message in an EdgeConv layer, as a function of the two endpoint rows and the layer's weights.

  For an edge with target row `xi` and source row `xj` (128 features each) the layer computes
    h  = xi · Wa[:, 0:128]ᵀ + (xj − xi) · Wa[:, 128:256]ᵀ + ba           (a linear map of the joined row [xi, xj − xi])
    n  = (max h 0 − rm) · (g · rsqrt (rv + ε)) + be                        (ReLU, then batch normalisation at fixed statistics)
    out = n · Wbᵀ + bb
  on the extended reals. Every array operation of the layer acts on each edge's row by itself, so an `[E, 128]` array of
  messages is `edgeRow` of row `p` of the two gathered arrays in its row `p` (`edgeMlp`), whatever way the rows are tiled.
  The one algebraic fact is that a row joined from two pieces times a matrix is the sum of the two pieces times the two
  blocks of the matrix's rows (`Rowwise.dense_join`): a re-indexing of one finite sum, which needs no finiteness.
-/
import proofs.«103682_j85873576117019_1_alg».proof.Proof.LibJoinedRow

noncomputable section

open scoped BigOperators

namespace Idealize.ShloMosaic.EdgeConv

open Idealize.ShloMosaic Idealize.ShloMosaic.ValueIdx Idealize.ShloMosaic.Rowwise

/-! ## The layer on one edge -/

/-- The first linear map: `xi` against the first 128 columns of `Wa`, `xj − xi` against the last 128, plus the bias. -/
def hidden (xi xj : Fin 128 → EReal) (wa : Fin 128 → Fin 256 → EReal) (ba : Fin 128 → EReal) : Fin 128 → EReal :=
  fun q => dense xi (colsT 0 128 (by norm_num) wa) q + dense (fun k => xj k - xi k) (colsT 128 128 (by norm_num) wa) q + ba q

/-- Batch normalisation's factor `g · rsqrt (rv + ε)`, ε the f32 nearest 1e-5. -/
def scale (g rv : Fin 128 → EReal) : Fin 128 → EReal :=
  fun q => g q * Ideal.rsqrt (rv q + Ideal.ofBits .f32 0x3727C5AC#32)

/-- ReLU, then batch normalisation at the fixed statistics `rm`, `rv`. -/
def normed (h g be rm rv : Fin 128 → EReal) : Fin 128 → EReal :=
  fun q => (max (h q) (Ideal.ofBits .f32 0x00000000#32) - rm q) * scale g rv q + be q

/-- One edge's message. -/
def edgeRow (xi xj : Fin 128 → EReal) (wa : Fin 128 → Fin 256 → EReal) (ba g be rm rv : Fin 128 → EReal)
    (wb : Fin 128 → Fin 128 → EReal) (bb : Fin 128 → EReal) : Fin 128 → EReal :=
  fun q => dense (normed (hidden xi xj wa ba) g be rm rv) (matT wb) q + bb q

/-- The reference's spelling of the first linear map, the joined row `[xi, xj − xi]` against `Waᵀ`, is `hidden`. -/
theorem hidden_of_join (xi xj : Fin 128 → EReal) (wa : Fin 128 → Fin 256 → EReal) (ba : Fin 128 → EReal)
    (h : 256 = 128 + 128) :
    (fun q => dense (join h xi (fun k => xj k - xi k)) (matT wa) q + ba q) = hidden xi xj wa ba := by
  funext q
  rw [dense_join]
  unfold hidden
  congr 2

/-! ## The layer on an array of edges -/

/-- The `[E, 128]` array of messages: row `p` is `edgeRow` of row `p` of the two gathered arrays. -/
def edgeMlp {E : Nat} (xi xj : (⟨2, ![E, 128]⟩ : Shape).Idx → EReal) (wa : (⟨2, ![128, 256]⟩ : Shape).Idx → EReal)
    (ba g be rm rv : (⟨1, ![128]⟩ : Shape).Idx → EReal) (wb : (⟨2, ![128, 128]⟩ : Shape).Idx → EReal)
    (bb : (⟨1, ![128]⟩ : Shape).Idx → EReal) : (⟨2, ![E, 128]⟩ : Shape).Idx → EReal :=
  fun j => edgeRow (row xi (j 0)) (row xj (j 0)) (mat wa) (vec ba) (vec g) (vec be) (vec rm) (vec rv) (mat wb) (vec bb) (j 1)

/-- An array whose every row is `edgeRow` of the matching rows is `edgeMlp`. -/
theorem eq_edgeMlp_of_rows {E : Nat} (X xi xj : (⟨2, ![E, 128]⟩ : Shape).Idx → EReal) (wa : (⟨2, ![128, 256]⟩ : Shape).Idx → EReal)
    (ba g be rm rv : (⟨1, ![128]⟩ : Shape).Idx → EReal) (wb : (⟨2, ![128, 128]⟩ : Shape).Idx → EReal)
    (bb : (⟨1, ![128]⟩ : Shape).Idx → EReal)
    (h : ∀ p : Fin E, row X p
      = edgeRow (row xi p) (row xj p) (mat wa) (vec ba) (vec g) (vec be) (vec rm) (vec rv) (mat wb) (vec bb)) :
    X = edgeMlp xi xj wa ba g be rm rv wb bb := by
  funext j
  obtain ⟨p, q, rfl⟩ : ∃ (p : Fin E) (q : Fin 128), j = ix2 p q := ⟨j 0, j 1, eq_ix2 j⟩
  exact congrFun (h p) q

/-- Row `p` of `edgeMlp`. -/
theorem row_edgeMlp {E : Nat} (xi xj : (⟨2, ![E, 128]⟩ : Shape).Idx → EReal) (wa : (⟨2, ![128, 256]⟩ : Shape).Idx → EReal)
    (ba g be rm rv : (⟨1, ![128]⟩ : Shape).Idx → EReal) (wb : (⟨2, ![128, 128]⟩ : Shape).Idx → EReal)
    (bb : (⟨1, ![128]⟩ : Shape).Idx → EReal) (p : Fin E) :
    row (edgeMlp xi xj wa ba g be rm rv wb bb) p
      = edgeRow (row xi p) (row xj p) (mat wa) (vec ba) (vec g) (vec be) (vec rm) (vec rv) (mat wb) (vec bb) := rfl

end Idealize.ShloMosaic.EdgeConv

end
-- ==== Proof.Network.lean ====
/-
  Two EdgeConv layers with a row normalisation between them, as one function of the argument arrays.

  With `dst`, `src` the two rows of the edge list, one layer gathers the node features at both endpoints of every
  edge (an index below zero counted from the end, as jnp does), computes every edge's message (`edgeMlp`) and sums the
  messages into their target nodes (`segmentSum`). Between the layers every node's row is clipped at zero and divided
  by the larger of its Euclidean norm and 1e-12 (`unitRows`).
-/
import proofs.«103682_j85873576117019_1_alg».proof.Proof.Gen.KernelIdeal
import proofs.«103682_j85873576117019_1_alg».proof.Proof.EdgeRow
import Idealize.ShloMosaic.PureOps.Ideal

noncomputable section

namespace Cert.KernelIdeal.Net

open Cert.KernelIdeal Cert.KernelIdeal.Facts₀ Cert.KernelIdeal.Facts
open Idealize.ShloMosaic Idealize.ShloMosaic.EdgeConv

/-! ## The network as a function of the arguments -/

/-- The edge list's second row: every edge's target node. -/
def dstIdx (e : (⟨S2x600000, .i32⟩ : BufTy).Contents (Elt Ideal)) : (⟨S600000, .i32⟩ : BufTy).Contents (Elt Ideal) :=
  shapeCast S600000 (extractStridedSlice S1x600000 ![1, 0] e slices_S2x600000_S1x600000_1_0) shapeCasts_S1x600000_S600000

/-- The edge list's first row: every edge's source node. -/
def srcIdx (e : (⟨S2x600000, .i32⟩ : BufTy).Contents (Elt Ideal)) : (⟨S600000, .i32⟩ : BufTy).Contents (Elt Ideal) :=
  shapeCast S600000 (extractStridedSlice S1x600000 ![0, 0] e slices_S2x600000_S1x600000_0_0) shapeCasts_S1x600000_S600000

/-- Node numbers as a column of start indices, a negative number counted from the end (50000 added). -/
def wrapped (i : (⟨S600000, .i32⟩ : BufTy).Contents (Elt Ideal)) : (⟨S600000x1, .i32⟩ : BufTy).Contents (Elt Ideal) :=
  broadcastInDim S600000x1 ![0] bcast_S600000_S600000x1_0
    (select (cmpi .slt i (broadcastInDim S600000 ![] bcast_S_S600000 (constantI S_ 32 0#32)))
      (addi i (broadcastInDim S600000 ![] bcast_S_S600000 (constantI S_ 32 50000#32))) i)

/-- One row of node features per edge: the row of the node the edge names. -/
def gatherRows (x : (⟨S50000x128, .f32⟩ : BufTy).Contents (Elt Ideal)) (i : (⟨S600000, .i32⟩ : BufTy).Contents (Elt Ideal)) :
    (⟨S600000x128, .f32⟩ : BufTy).Contents (Elt Ideal) :=
  Host.gather gather_S50000x128_S600000x1_S600000x128_1_0_n_n_0_1_1128 x (wrapped i)

/-- The messages summed into their target nodes, from zero. -/
def segmentSum (d : (⟨S600000, .i32⟩ : BufTy).Contents (Elt Ideal)) (u : (⟨S600000x128, .f32⟩ : BufTy).Contents (Elt Ideal)) :
    (⟨S50000x128, .f32⟩ : BufTy).Contents (Elt Ideal) :=
  Host.scatterAdd (F := Ideal) scatter_S50000x128_S600000x1_S600000x128_1_0_0_1
    (broadcastInDim S50000x128 ![] bcast_S_S50000x128 (constant (F := Ideal) S_ .f32 0x00000000#32))
    (broadcastInDim S600000x1 ![0] bcast_S600000_S600000x1_0 d) u

/-- Every entry clipped at zero. -/
def clipped (h : (⟨S50000x128, .f32⟩ : BufTy).Contents (Elt Ideal)) : (⟨S50000x128, .f32⟩ : BufTy).Contents (Elt Ideal) :=
  maximumf (F := Ideal) h (broadcastInDim S50000x128 ![] bcast_S_S50000x128 (constant (F := Ideal) S_ .f32 0x00000000#32))

/-- Every row clipped at zero and divided by the larger of its Euclidean norm and the f32 nearest 1e-12. -/
def unitRows (h : (⟨S50000x128, .f32⟩ : BufTy).Contents (Elt Ideal)) : (⟨S50000x128, .f32⟩ : BufTy).Contents (Elt Ideal) :=
  Host.divf (F := Ideal) (clipped h)
    (broadcastInDim S50000x128 ![0, 1] bcast_S50000x1_S50000x128_0_1
      (maximumf (F := Ideal)
        (Host.sqrt (F := Ideal) (broadcastInDim S50000x1 ![0] bcast_S50000_S50000x1_0
          (Host.reduceAdd (F := Ideal) (mulf (F := Ideal) (clipped h) (clipped h)) (constant (F := Ideal) S_ .f32 0x00000000#32) reducesTo_S50000x128_S50000_d1 h_S_)))
        (broadcastInDim S50000x1 ![] bcast_S_S50000x1 (constant (F := Ideal) S_ .f32 0x2B8CBCCC#32))))

/-- One EdgeConv layer on node features `x` over the edge list `e`. -/
def layer (x : (⟨S50000x128, .f32⟩ : BufTy).Contents (Elt Ideal)) (e : (⟨S2x600000, .i32⟩ : BufTy).Contents (Elt Ideal))
    (wa : (⟨S128x256, .f32⟩ : BufTy).Contents (Elt Ideal)) (ba g be rm rv : (⟨S128, .f32⟩ : BufTy).Contents (Elt Ideal))
    (wb : (⟨S128x128, .f32⟩ : BufTy).Contents (Elt Ideal)) (bb : (⟨S128, .f32⟩ : BufTy).Contents (Elt Ideal)) :
    (⟨S50000x128, .f32⟩ : BufTy).Contents (Elt Ideal) :=
  segmentSum (dstIdx e) (edgeMlp (gatherRows x (dstIdx e)) (gatherRows x (srcIdx e)) wa ba g be rm rv wb bb)

/-- The two layers with the row normalisation between them. -/
def net (x : (⟨S50000x128, .f32⟩ : BufTy).Contents (Elt Ideal)) (e : (⟨S2x600000, .i32⟩ : BufTy).Contents (Elt Ideal))
    (wa : (⟨S128x256, .f32⟩ : BufTy).Contents (Elt Ideal)) (ba g be rm rv : (⟨S128, .f32⟩ : BufTy).Contents (Elt Ideal))
    (wb : (⟨S128x128, .f32⟩ : BufTy).Contents (Elt Ideal)) (bb : (⟨S128, .f32⟩ : BufTy).Contents (Elt Ideal))
    (wa' : (⟨S128x256, .f32⟩ : BufTy).Contents (Elt Ideal)) (ba' g' be' rm' rv' : (⟨S128, .f32⟩ : BufTy).Contents (Elt Ideal))
    (wb' : (⟨S128x128, .f32⟩ : BufTy).Contents (Elt Ideal)) (bb' : (⟨S128, .f32⟩ : BufTy).Contents (Elt Ideal)) :
    (⟨S50000x128, .f32⟩ : BufTy).Contents (Elt Ideal) :=
  layer (unitRows (layer x e wa ba g be rm rv wb bb)) e wa' ba' g' be' rm' rv' wb' bb'

end Cert.KernelIdeal.Net

end
-- ==== Proof.RegionValue.lean ====
/-
  What an EdgeConv region leaves in its output array.

  The region's body, at one grid point, reads a block of 3000 rows of each of the two gathered arrays and the layer's
  eight weight arrays whole, and stores one block of 3000 rows of messages. Every array operation of the body acts on
  each row by itself, so row `p` of the stored block is the layer's message (`edgeRow`) for row `p` of the two input
  blocks. Point `t` of the grid handles rows `3000 t … 3000 t + 2999`, the same rows of the inputs as of the output, so
  the block it writes back is that block of `edgeMlp` of the whole arrays; the 200 blocks tile the 600000 rows, so the
  output array ends holding `edgeMlp` of the region-entry contents.
-/
import proofs.«103682_j85873576117019_1_alg».proof.Proof.Gen.KernelIdeal.Frame
import proofs.«103682_j85873576117019_1_alg».proof.Proof.EdgeRow

set_option maxRecDepth 16384

noncomputable section

namespace Cert.KernelIdeal.RegionValue

open Cert.KernelIdeal Cert.KernelIdeal.Gen
open Idealize.ShloMosaic Idealize.ShloMosaic.TcCoe Idealize.SL.Sem
open Idealize.ShloMosaic.ValueIdx Idealize.ShloMosaic.Rowwise Idealize.ShloMosaic.EdgeConv

/-! ## The body's payload, one row at a time -/

/-- The kernel's product is a plain rows-by-columns product: contracted on the left operand's second axis and the right
    operand's first, no batch axis. -/
theorem dot_is_plain : dot_S3000x128_S128x128_S3000x128_1_0_0_1_n_n = DotDims.plain 3000 128 128 := rfl

/-- A product into a zero accumulator, one row at a time. -/
theorem row_product (A : FVec Ideal S3000x128 .bf16) (B : FVec Ideal S128x128 .bf16) (p : Fin 3000) :
    row (matmul dot_S3000x128_S128x128_S3000x128_1_0_0_1_n_n none A B (constant S3000x128 .f32 0x00000000#32)) p
      = dense (row A p) (mat B) := by
  rw [dot_is_plain]
  exact row_matmul none A B p

/-- A vector recast as a one-row array and repeated down the rows: every row is the vector. -/
theorem row_of_vector (v : Vec Ideal S128 .f32) (p : Fin 3000) :
    row (broadcastTo S3000x128 (shapeCast S1x128 v shapeCasts_S128_S1x128) broadcasts_S1x128_S3000x128) p = vec v := by
  rw [row_broadcastTo_row, row_reshape_vector]

/-- The first payload, one row at a time: the first linear map of the row joined from `xi` and `xj − xi` (as two products
    against the two column blocks of the weight), ReLU, and batch normalisation at the fixed statistics. -/
theorem pay2_row (x0 x1 : Vec Ideal S3000x128 .f32) (x2 : Vec Ideal S128x256 .f32) (x3 x4 x5 x6 x7 : Vec Ideal S128 .f32)
    (p : Fin 3000) :
    row (k0_pay2 x0 x1 x2 x3 x4 x7 x6 x5) p
      = normed (hidden (row x0 p) (row x1 p) (mat x2) (vec x3)) (vec x4) (vec x5) (vec x6) (vec x7) := by
  unfold k0_pay2
  dsimp only
  rw [row_truncf, row_addf, row_of_vector, row_mulf, row_of_vector, row_subf, row_of_vector, row_maximumf_broadcast,
    row_addf, row_of_vector, row_addf, row_product, row_product, row_truncf, row_truncf, row_subf, row_shapeCast_self,
    row_shapeCast_self, mat_transpose_colBlock, mat_transpose_colBlock, mat_truncf, vec_mulf, vec_rsqrt, vec_addf, vec_broadcast]
  rfl

/-- The stored payload, one row at a time: the layer's message for that row's two endpoint rows. -/
theorem pay_row (x0 x1 : Vec Ideal S3000x128 .f32) (x2 : Vec Ideal S128x256 .f32) (x3 x4 x5 x6 x7 x9 : Vec Ideal S128 .f32)
    (x8 : Vec Ideal S128x128 .f32) (p : Fin 3000) :
    row (k0_pay1 (k0_pay2 x0 x1 x2 x3 x4 x7 x6 x5) (k0_pay3 x8) x9) p
      = edgeRow (row x0 p) (row x1 p) (mat x2) (vec x3) (vec x4) (vec x5) (vec x6) (vec x7) (mat x8) (vec x9) := by
  unfold k0_pay1 k0_pay3
  dsimp only
  rw [row_addf, row_product, row_of_vector, mat_transpose, mat_truncf, pay2_row]
  rfl

/-- The second region's body is the same arithmetic. -/
theorem pay1_same : @k1_pay1 Ideal _ = @k0_pay1 Ideal _ := rfl
theorem pay2_same : @k1_pay2 Ideal _ = @k0_pay2 Ideal _ := rfl
theorem pay3_same : @k1_pay3 Ideal _ = @k0_pay3 Ideal _ := rfl

/-! ## A block of rows of the layer's output -/

/-- When the two row blocks `x0`, `x1` are the arrays `X0`, `X1` read through a map `e` that sends row `p` of the block to
    row `r p` of the array and keeps the column, and the weight blocks are the weight arrays, the stored payload is
    `edgeMlp` of the arrays read through `e`. -/
theorem payload_of_blocks (X0 X1 : S600000x128.Idx → EReal) (X2 : S128x256.Idx → EReal) (X3 X4 X5 X6 X7 : S128.Idx → EReal)
    (X8 : S128x128.Idx → EReal) (X9 : S128.Idx → EReal)
    (x0 x1 : Vec Ideal S3000x128 .f32) (x2 : Vec Ideal S128x256 .f32) (x3 x4 x5 x6 x7 : Vec Ideal S128 .f32)
    (x8 : Vec Ideal S128x128 .f32) (x9 : Vec Ideal S128 .f32)
    (e : S3000x128.Idx → S600000x128.Idx) (r : Fin 3000 → Fin 600000)
    (he : ∀ (p : Fin 3000) (k : Fin 128), e (ix2 p k) = ix2 (r p) k)
    (h0 : ∀ y, x0 y = X0 (e y)) (h1 : ∀ y, x1 y = X1 (e y))
    (h2 : x2 = X2) (h3 : x3 = X3) (h4 : x4 = X4) (h5 : x5 = X5) (h6 : x6 = X6) (h7 : x7 = X7) (h8 : x8 = X8) (h9 : x9 = X9)
    (j : S3000x128.Idx) :
    k0_pay1 (k0_pay2 x0 x1 x2 x3 x4 x7 x6 x5) (k0_pay3 x8) x9 j = edgeMlp X0 X1 X2 X3 X4 X5 X6 X7 X8 X9 (e j) := by
  subst h2 h3 h4 h5 h6 h7 h8 h9
  obtain ⟨p, q, rfl⟩ : ∃ (p : Fin 3000) (q : Fin 128), j = ix2 p q := ⟨j 0, j 1, eq_ix2 j⟩
  rw [he]
  show row (k0_pay1 (k0_pay2 x0 x1 x2 x3 x4 x7 x6 x5) (k0_pay3 x8) x9) p q
    = edgeRow (row X0 (r p)) (row X1 (r p)) (mat x2) (vec x3) (vec x4) (vec x5) (vec x6) (vec x7) (mat x8) (vec x9) q
  have e0 : row x0 p = row X0 (r p) := funext fun k => by
    show x0 (ix2 p k) = X0 (ix2 (r p) k)
    rw [h0, he]
  have e1 : row x1 p = row X1 (r p) := funext fun k => by
    show x1 (ix2 p k) = X1 (ix2 (r p) k)
    rw [h1, he]
  rw [pay_row, e0, e1]

/-- The same for the second region's body. -/
theorem payload_of_blocks1 (X0 X1 : S600000x128.Idx → EReal) (X2 : S128x256.Idx → EReal) (X3 X4 X5 X6 X7 : S128.Idx → EReal)
    (X8 : S128x128.Idx → EReal) (X9 : S128.Idx → EReal)
    (x0 x1 : Vec Ideal S3000x128 .f32) (x2 : Vec Ideal S128x256 .f32) (x3 x4 x5 x6 x7 : Vec Ideal S128 .f32)
    (x8 : Vec Ideal S128x128 .f32) (x9 : Vec Ideal S128 .f32)
    (e : S3000x128.Idx → S600000x128.Idx) (r : Fin 3000 → Fin 600000)
    (he : ∀ (p : Fin 3000) (k : Fin 128), e (ix2 p k) = ix2 (r p) k)
    (h0 : ∀ y, x0 y = X0 (e y)) (h1 : ∀ y, x1 y = X1 (e y))
    (h2 : x2 = X2) (h3 : x3 = X3) (h4 : x4 = X4) (h5 : x5 = X5) (h6 : x6 = X6) (h7 : x7 = X7) (h8 : x8 = X8) (h9 : x9 = X9)
    (j : S3000x128.Idx) :
    k1_pay1 (k1_pay2 x0 x1 x2 x3 x4 x7 x6 x5) (k1_pay3 x8) x9 j = edgeMlp X0 X1 X2 X3 X4 X5 X6 X7 X8 X9 (e j) := by
  rw [pay1_same, pay2_same, pay3_same]
  exact payload_of_blocks X0 X1 X2 X3 X4 X5 X6 X7 X8 X9 x0 x1 x2 x3 x4 x5 x6 x7 x8 x9 e r he h0 h1 h2 h3 h4 h5 h6 h7 h8 h9 j

theorem zeros2 : (![0, 0] : Fin 2 → Nat) = fun _ => 0 := funext fun a => by fin_cases a <;> rfl
theorem zeros1 : (![0] : Fin 1 → Nat) = fun _ => 0 := funext fun a => by fin_cases a <;> rfl

variable (V : (c : Dev nD) → (b : Ref sig .tc) → Buf (Elt Ideal) ((c : Thread nD τ).loc b))

/-! ## Region 0 -/

/-- The printed index maps, decided over the grid: the two row-block windows and the output window sit at block `t` of
    the rows and block 0 of the columns; the eight weight windows at block 0. -/
theorem index_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 1) = 0
    ∧ win0_5.index t (0 : Fin 1) = 0
    ∧ win0_6.index t (0 : Fin 1) = 0
    ∧ win0_7.index t (0 : Fin 1) = 0
    ∧ win0_8.index t (0 : Fin 2) = 0 ∧ win0_8.index t (1 : Fin 2) = 0
    ∧ win0_9.index t (0 : Fin 1) = 0
    ∧ win0_10.index t (0 : Fin 2) = t.val ∧ win0_10.index t (1 : Fin 2) = 0 :=
  (by decide +kernel : ∀ t : Fin grid0.N, _)

/-- Row `p`, column `k` of point `t`'s output block is row `3000 t + p`, column `k` of the output array. -/
theorem out_rows0 (t : Fin cfg0.N) (ht : t.val < 200) (p : Fin 3000) (k : Fin 128) :
    (((cfg0.win 10).blk t).view.emb : S3000x128.Idx → S600000x128.Idx) (ix2 p k)
      = ix2 (⟨t.val * 3000 + p.val, by have := p.isLt; omega⟩ : Fin 600000) k := by
  obtain ⟨a0, b0, a1, b1, a2, b2, a3, a4, a5, a6, a7, a8, b8, a9, a10, b10⟩ := index_facts0 t
  funext a; apply Fin.ext
  match a with
  | ⟨0, _⟩ => show win0_10.index t (0 : Fin 2) * 3000 + 1 * p.val = t.val * 3000 + p.val; omega
  | ⟨1, _⟩ => show win0_10.index t (1 : Fin 2) * 128 + 1 * k.val = k.val; omega

/-- Window 0's block at point `t` holds the same rows of its array as the output's block does of the output array. -/
theorem in_rows0_0 (c : Dev nD) (t : Fin cfg0.N) (y : S3000x128.Idx) :
    (iblk0 V c 0 t : Vec Ideal S3000x128 .f32) y
      = V c main_v10 ((((cfg0.win 10).blk t).view.emb : S3000x128.Idx → S600000x128.Idx) y) := by
  obtain ⟨a0, b0, a1, b1, a2, b2, a3, a4, a5, a6, a7, a8, b8, a9, a10, b10⟩ := index_facts0 t
  show V c main_v10 (((cfg0.win 0).blk t).view.emb y) = V c main_v10 (((cfg0.win 10).blk t).view.emb y)
  have hemb : ((cfg0.win 0).blk t).view.emb y = ((cfg0.win 10).blk t).view.emb y := by
    funext a; apply Fin.ext
    match a with
    | ⟨0, _⟩ => show win0_0.index t (0 : Fin 2) * 3000 + 1 * (y 0).val = win0_10.index t (0 : Fin 2) * 3000 + 1 * (y 0).val; omega
    | ⟨1, _⟩ => show win0_0.index t (1 : Fin 2) * 128 + 1 * (y 1).val = win0_10.index t (1 : Fin 2) * 128 + 1 * (y 1).val; omega
  rw [hemb]

/-- Window 1's block at point `t` holds the same rows of its array as the output's block does of the output array. -/
theorem in_rows0_1 (c : Dev nD) (t : Fin cfg0.N) (y : S3000x128.Idx) :
    (iblk0 V c 1 t : Vec Ideal S3000x128 .f32) y
      = V c main_v17 ((((cfg0.win 10).blk t).view.emb : S3000x128.Idx → S600000x128.Idx) y) := by
  obtain ⟨a0, b0, a1, b1, a2, b2, a3, a4, a5, a6, a7, a8, b8, a9, a10, b10⟩ := index_facts0 t
  show V c main_v17 (((cfg0.win 1).blk t).view.emb y) = V c main_v17 (((cfg0.win 10).blk t).view.emb y)
  have hemb : ((cfg0.win 1).blk t).view.emb y = ((cfg0.win 10).blk t).view.emb y := by
    funext a; apply Fin.ext
    match a with
    | ⟨0, _⟩ => show win0_1.index t (0 : Fin 2) * 3000 + 1 * (y 0).val = win0_10.index t (0 : Fin 2) * 3000 + 1 * (y 0).val; omega
    | ⟨1, _⟩ => show win0_1.index t (1 : Fin 2) * 128 + 1 * (y 1).val = win0_10.index t (1 : Fin 2) * 128 + 1 * (y 1).val; omega
  rw [hemb]

/-- Window 2's block is its whole array at every point. -/
theorem whole0_2 (c : Dev nD) (t : Fin cfg0.N) : (iblk0 V c 2 t : Vec Ideal S128x256 .f32) = V c main_arg2 := by
  obtain ⟨a0, b0, a1, b1, a2, b2, a3, a4, a5, a6, a7, a8, b8, a9, a10, b10⟩ := index_facts0 t
  funext y
  show V c main_arg2 (((cfg0.win 2).blk t).view.emb y) = V c main_arg2 y
  congr 1
  funext a; apply Fin.ext
  match a with
  | ⟨0, _⟩ => show win0_2.index t (0 : Fin 2) * 128 + 1 * (y 0).val = (y 0).val; omega
  | ⟨1, _⟩ => show win0_2.index t (1 : Fin 2) * 256 + 1 * (y 1).val = (y 1).val; omega

/-- Window 3's block is its whole array at every point. -/
theorem whole0_3 (c : Dev nD) (t : Fin cfg0.N) : (iblk0 V c 3 t : Vec Ideal S128 .f32) = V c main_arg3 := by
  obtain ⟨a0, b0, a1, b1, a2, b2, a3, a4, a5, a6, a7, a8, b8, a9, a10, b10⟩ := index_facts0 t
  funext y
  show V c main_arg3 (((cfg0.win 3).blk t).view.emb y) = V c main_arg3 y
  congr 1
  funext a; apply Fin.ext
  match a with
  | ⟨0, _⟩ => show win0_3.index t (0 : Fin 1) * 128 + 1 * (y 0).val = (y 0).val; omega

/-- Window 4's block is its whole array at every point. -/
theorem whole0_4 (c : Dev nD) (t : Fin cfg0.N) : (iblk0 V c 4 t : Vec Ideal S128 .f32) = V c main_arg4 := by
  obtain ⟨a0, b0, a1, b1, a2, b2, a3, a4, a5, a6, a7, a8, b8, a9, a10, b10⟩ := index_facts0 t
  funext y
  show V c main_arg4 (((cfg0.win 4).blk t).view.emb y) = V c main_arg4 y
  congr 1
  funext a; apply Fin.ext
  match a with
  | ⟨0, _⟩ => show win0_4.index t (0 : Fin 1) * 128 + 1 * (y 0).val = (y 0).val; omega

/-- Window 5's block is its whole array at every point. -/
theorem whole0_5 (c : Dev nD) (t : Fin cfg0.N) : (iblk0 V c 5 t : Vec Ideal S128 .f32) = V c main_arg5 := by
  obtain ⟨a0, b0, a1, b1, a2, b2, a3, a4, a5, a6, a7, a8, b8, a9, a10, b10⟩ := index_facts0 t
  funext y
  show V c main_arg5 (((cfg0.win 5).blk t).view.emb y) = V c main_arg5 y
  congr 1
  funext a; apply Fin.ext
  match a with
  | ⟨0, _⟩ => show win0_5.index t (0 : Fin 1) * 128 + 1 * (y 0).val = (y 0).val; omega

/-- Window 6's block is its whole array at every point. -/
theorem whole0_6 (c : Dev nD) (t : Fin cfg0.N) : (iblk0 V c 6 t : Vec Ideal S128 .f32) = V c main_arg6 := by
  obtain ⟨a0, b0, a1, b1, a2, b2, a3, a4, a5, a6, a7, a8, b8, a9, a10, b10⟩ := index_facts0 t
  funext y
  show V c main_arg6 (((cfg0.win 6).blk t).view.emb y) = V c main_arg6 y
  congr 1
  funext a; apply Fin.ext
  match a with
  | ⟨0, _⟩ => show win0_6.index t (0 : Fin 1) * 128 + 1 * (y 0).val = (y 0).val; omega

/-- Window 7's block is its whole array at every point. -/
theorem whole0_7 (c : Dev nD) (t : Fin cfg0.N) : (iblk0 V c 7 t : Vec Ideal S128 .f32) = V c main_arg7 := by
  obtain ⟨a0, b0, a1, b1, a2, b2, a3, a4, a5, a6, a7, a8, b8, a9, a10, b10⟩ := index_facts0 t
  funext y
  show V c main_arg7 (((cfg0.win 7).blk t).view.emb y) = V c main_arg7 y
  congr 1
  funext a; apply Fin.ext
  match a with
  | ⟨0, _⟩ => show win0_7.index t (0 : Fin 1) * 128 + 1 * (y 0).val = (y 0).val; omega

/-- Window 8's block is its whole array at every point. -/
theorem whole0_8 (c : Dev nD) (t : Fin cfg0.N) : (iblk0 V c 8 t : Vec Ideal S128x128 .f32) = V c main_arg8 := by
  obtain ⟨a0, b0, a1, b1, a2, b2, a3, a4, a5, a6, a7, a8, b8, a9, a10, b10⟩ := index_facts0 t
  funext y
  show V c main_arg8 (((cfg0.win 8).blk t).view.emb y) = V c main_arg8 y
  congr 1
  funext a; apply Fin.ext
  match a with
  | ⟨0, _⟩ => show win0_8.index t (0 : Fin 2) * 128 + 1 * (y 0).val = (y 0).val; omega
  | ⟨1, _⟩ => show win0_8.index t (1 : Fin 2) * 128 + 1 * (y 1).val = (y 1).val; omega

/-- Window 9's block is its whole array at every point. -/
theorem whole0_9 (c : Dev nD) (t : Fin cfg0.N) : (iblk0 V c 9 t : Vec Ideal S128 .f32) = V c main_arg9 := by
  obtain ⟨a0, b0, a1, b1, a2, b2, a3, a4, a5, a6, a7, a8, b8, a9, a10, b10⟩ := index_facts0 t
  funext y
  show V c main_arg9 (((cfg0.win 9).blk t).view.emb y) = V c main_arg9 y
  congr 1
  funext a; apply Fin.ext
  match a with
  | ⟨0, _⟩ => show win0_9.index t (0 : Fin 1) * 128 + 1 * (y 0).val = (y 0).val; omega

/-- WHAT POINT `t` WRITES BACK is block `t` of `edgeMlp` of the arrays as the region finds them. -/
theorem flushed0 (c : Dev nD) (t : Fin cfg0.N) :
    (dat0 (F := Ideal) V c).flushed 10 t = ((cfg0.win 10).blk t).view.read (Elt Ideal)
      (edgeMlp (V c main_v10) (V c main_v17) (V c main_arg2) (V c main_arg3) (V c main_arg4) (V c main_arg5)
        (V c main_arg6) (V c main_arg7) (V c main_arg8) (V c main_arg9)) := by
  show (cfg0.win 10).cut (grid0.coords t) ((dat0 V c).after 10 t) = _
  rw [after0_10]
  unfold out0_10
  rw [View.canon_unit_zero zeros2]
  simp only [View.ld_unit_zero (S := S3000x128) zeros2, View.ld_unit_zero (S := S128x256) zeros2,
    View.ld_unit_zero (S := S128x128) zeros2, View.ld_unit_zero (S := S128) zeros1]
  have ht : t.val < 200 := lt_of_lt_of_eq t.isLt N_0
  funext j
  show _ = edgeMlp (V c main_v10) (V c main_v17) (V c main_arg2) (V c main_arg3) (V c main_arg4) (V c main_arg5)
        (V c main_arg6) (V c main_arg7) (V c main_arg8) (V c main_arg9) (((cfg0.win 10).blk t).view.emb j)
  exact payload_of_blocks (V c main_v10) (V c main_v17) (V c main_arg2) (V c main_arg3) (V c main_arg4) (V c main_arg5)
    (V c main_arg6) (V c main_arg7) (V c main_arg8) (V c main_arg9) _ _ _ _ _ _ _ _ _ _
    (((cfg0.win 10).blk t).view.emb) (fun p => ⟨t.val * 3000 + p.val, by have := p.isLt; omega⟩)
    (out_rows0 t ht) (in_rows0_0 V c t) (in_rows0_1 V c t) (whole0_2 V c t) (whole0_3 V c t) (whole0_4 V c t)
    (whole0_5 V c t) (whole0_6 V c t) (whole0_7 V c t) (whole0_8 V c t) (whole0_9 V c t) j

/-- An index of the output array is in point `t`'s block iff each coordinate is in the block's range on its axis. -/
theorem mem_block0 (t : Fin cfg0.N) (i : S600000x128.Idx) :
    i ∈ ((cfg0.win 10).blk t).view.set ↔ ∀ a : Fin 2, win0_10.index t a * S3000x128.size a ≤ (i a).val
      ∧ (i a).val < win0_10.index t a * S3000x128.size a + S3000x128.size a := by
  show i ∈ ((View.whole main_v18).slice (win0_10.rect t)).set ↔ _
  rw [View.set_slice_whole, Rect.mem_set_unit]
  exact Iff.rfl

/-- Row `r` of the output array is in the block of point `r / 3000`, which is written back. -/
theorem cover0 (i : S600000x128.Idx) :
    ∃ t : Fin cfg0.N, (cfg0.win 10).flush t = true ∧ i ∈ ((cfg0.win 10).blk t).view.set := by
  have hi0 : (i 0).val < 600000 := (i 0).isLt
  have hi1 : (i 1).val < 128 := (i 1).isLt
  obtain ⟨t, ht⟩ : ∃ t : Fin cfg0.N, t.val = (i 0).val / 3000 :=
    ⟨⟨(i 0).val / 3000, lt_of_lt_of_eq (by omega : (i 0).val / 3000 < 200) N_0.symm⟩, rfl⟩
  obtain ⟨-, -, -, -, -, -, -, -, -, -, -, -, -, -, a10, b10⟩ := index_facts0 t
  refine ⟨t, flush0_10 t, ?_⟩
  rw [mem_block0]
  intro a
  match a with
  | ⟨0, _⟩ => show win0_10.index t (0 : Fin 2) * 3000 ≤ (i 0).val ∧ (i 0).val < win0_10.index t (0 : Fin 2) * 3000 + 3000; omega
  | ⟨1, _⟩ => show win0_10.index t (1 : Fin 2) * 128 ≤ (i 1).val ∧ (i 1).val < win0_10.index t (1 : Fin 2) * 128 + 128; omega

/-- Region 0's output array after the region, from the region-entry contents of its ten input arrays. -/
theorem region0_array (c : Dev nD) :
    (dat0 (F := Ideal) V c).arrAt 10 cfg0.N
      = edgeMlp (V c main_v10) (V c main_v17) (V c main_arg2) (V c main_arg3) (V c main_arg4) (V c main_arg5)
          (V c main_arg6) (V c main_arg7) (V c main_arg8) (V c main_arg9) :=
  (dat0 (F := Ideal) V c).arrAt_eq_of_cover 10 _ (fun t _ => flushed0 V c t) cover0

/-! ## Region 1 -/

/-- The printed index maps, decided over the grid: the two row-block windows and the output window sit at block `t` of
    the rows and block 0 of the columns; the eight weight windows at block 0. -/
theorem index_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 1) = 0
    ∧ win1_5.index t (0 : Fin 1) = 0
    ∧ win1_6.index t (0 : Fin 1) = 0
    ∧ win1_7.index t (0 : Fin 1) = 0
    ∧ win1_8.index t (0 : Fin 2) = 0 ∧ win1_8.index t (1 : Fin 2) = 0
    ∧ win1_9.index t (0 : Fin 1) = 0
    ∧ win1_10.index t (0 : Fin 2) = t.val ∧ win1_10.index t (1 : Fin 2) = 0 :=
  (by decide +kernel : ∀ t : Fin grid1.N, _)

/-- Row `p`, column `k` of point `t`'s output block is row `3000 t + p`, column `k` of the output array. -/
theorem out_rows1 (t : Fin cfg1.N) (ht : t.val < 200) (p : Fin 3000) (k : Fin 128) :
    (((cfg1.win 10).blk t).view.emb : S3000x128.Idx → S600000x128.Idx) (ix2 p k)
      = ix2 (⟨t.val * 3000 + p.val, by have := p.isLt; omega⟩ : Fin 600000) k := by
  obtain ⟨a0, b0, a1, b1, a2, b2, a3, a4, a5, a6, a7, a8, b8, a9, a10, b10⟩ := index_facts1 t
  funext a; apply Fin.ext
  match a with
  | ⟨0, _⟩ => show win1_10.index t (0 : Fin 2) * 3000 + 1 * p.val = t.val * 3000 + p.val; omega
  | ⟨1, _⟩ => show win1_10.index t (1 : Fin 2) * 128 + 1 * k.val = k.val; omega

/-- Window 0's block at point `t` holds the same rows of its array as the output's block does of the output array. -/
theorem in_rows1_0 (c : Dev nD) (t : Fin cfg1.N) (y : S3000x128.Idx) :
    (iblk1 V c 0 t : Vec Ideal S3000x128 .f32) y
      = V c main_v34 ((((cfg1.win 10).blk t).view.emb : S3000x128.Idx → S600000x128.Idx) y) := by
  obtain ⟨a0, b0, a1, b1, a2, b2, a3, a4, a5, a6, a7, a8, b8, a9, a10, b10⟩ := index_facts1 t
  show V c main_v34 (((cfg1.win 0).blk t).view.emb y) = V c main_v34 (((cfg1.win 10).blk t).view.emb y)
  have hemb : ((cfg1.win 0).blk t).view.emb y = ((cfg1.win 10).blk t).view.emb y := by
    funext a; apply Fin.ext
    match a with
    | ⟨0, _⟩ => show win1_0.index t (0 : Fin 2) * 3000 + 1 * (y 0).val = win1_10.index t (0 : Fin 2) * 3000 + 1 * (y 0).val; omega
    | ⟨1, _⟩ => show win1_0.index t (1 : Fin 2) * 128 + 1 * (y 1).val = win1_10.index t (1 : Fin 2) * 128 + 1 * (y 1).val; omega
  rw [hemb]

/-- Window 1's block at point `t` holds the same rows of its array as the output's block does of the output array. -/
theorem in_rows1_1 (c : Dev nD) (t : Fin cfg1.N) (y : S3000x128.Idx) :
    (iblk1 V c 1 t : Vec Ideal S3000x128 .f32) y
      = V c main_v41 ((((cfg1.win 10).blk t).view.emb : S3000x128.Idx → S600000x128.Idx) y) := by
  obtain ⟨a0, b0, a1, b1, a2, b2, a3, a4, a5, a6, a7, a8, b8, a9, a10, b10⟩ := index_facts1 t
  show V c main_v41 (((cfg1.win 1).blk t).view.emb y) = V c main_v41 (((cfg1.win 10).blk t).view.emb y)
  have hemb : ((cfg1.win 1).blk t).view.emb y = ((cfg1.win 10).blk t).view.emb y := by
    funext a; apply Fin.ext
    match a with
    | ⟨0, _⟩ => show win1_1.index t (0 : Fin 2) * 3000 + 1 * (y 0).val = win1_10.index t (0 : Fin 2) * 3000 + 1 * (y 0).val; omega
    | ⟨1, _⟩ => show win1_1.index t (1 : Fin 2) * 128 + 1 * (y 1).val = win1_10.index t (1 : Fin 2) * 128 + 1 * (y 1).val; omega
  rw [hemb]

/-- Window 2's block is its whole array at every point. -/
theorem whole1_2 (c : Dev nD) (t : Fin cfg1.N) : (iblk1 V c 2 t : Vec Ideal S128x256 .f32) = V c main_arg10 := by
  obtain ⟨a0, b0, a1, b1, a2, b2, a3, a4, a5, a6, a7, a8, b8, a9, a10, b10⟩ := index_facts1 t
  funext y
  show V c main_arg10 (((cfg1.win 2).blk t).view.emb y) = V c main_arg10 y
  congr 1
  funext a; apply Fin.ext
  match a with
  | ⟨0, _⟩ => show win1_2.index t (0 : Fin 2) * 128 + 1 * (y 0).val = (y 0).val; omega
  | ⟨1, _⟩ => show win1_2.index t (1 : Fin 2) * 256 + 1 * (y 1).val = (y 1).val; omega

/-- Window 3's block is its whole array at every point. -/
theorem whole1_3 (c : Dev nD) (t : Fin cfg1.N) : (iblk1 V c 3 t : Vec Ideal S128 .f32) = V c main_arg11 := by
  obtain ⟨a0, b0, a1, b1, a2, b2, a3, a4, a5, a6, a7, a8, b8, a9, a10, b10⟩ := index_facts1 t
  funext y
  show V c main_arg11 (((cfg1.win 3).blk t).view.emb y) = V c main_arg11 y
  congr 1
  funext a; apply Fin.ext
  match a with
  | ⟨0, _⟩ => show win1_3.index t (0 : Fin 1) * 128 + 1 * (y 0).val = (y 0).val; omega

/-- Window 4's block is its whole array at every point. -/
theorem whole1_4 (c : Dev nD) (t : Fin cfg1.N) : (iblk1 V c 4 t : Vec Ideal S128 .f32) = V c main_arg12 := by
  obtain ⟨a0, b0, a1, b1, a2, b2, a3, a4, a5, a6, a7, a8, b8, a9, a10, b10⟩ := index_facts1 t
  funext y
  show V c main_arg12 (((cfg1.win 4).blk t).view.emb y) = V c main_arg12 y
  congr 1
  funext a; apply Fin.ext
  match a with
  | ⟨0, _⟩ => show win1_4.index t (0 : Fin 1) * 128 + 1 * (y 0).val = (y 0).val; omega

/-- Window 5's block is its whole array at every point. -/
theorem whole1_5 (c : Dev nD) (t : Fin cfg1.N) : (iblk1 V c 5 t : Vec Ideal S128 .f32) = V c main_arg13 := by
  obtain ⟨a0, b0, a1, b1, a2, b2, a3, a4, a5, a6, a7, a8, b8, a9, a10, b10⟩ := index_facts1 t
  funext y
  show V c main_arg13 (((cfg1.win 5).blk t).view.emb y) = V c main_arg13 y
  congr 1
  funext a; apply Fin.ext
  match a with
  | ⟨0, _⟩ => show win1_5.index t (0 : Fin 1) * 128 + 1 * (y 0).val = (y 0).val; omega

/-- Window 6's block is its whole array at every point. -/
theorem whole1_6 (c : Dev nD) (t : Fin cfg1.N) : (iblk1 V c 6 t : Vec Ideal S128 .f32) = V c main_arg14 := by
  obtain ⟨a0, b0, a1, b1, a2, b2, a3, a4, a5, a6, a7, a8, b8, a9, a10, b10⟩ := index_facts1 t
  funext y
  show V c main_arg14 (((cfg1.win 6).blk t).view.emb y) = V c main_arg14 y
  congr 1
  funext a; apply Fin.ext
  match a with
  | ⟨0, _⟩ => show win1_6.index t (0 : Fin 1) * 128 + 1 * (y 0).val = (y 0).val; omega

/-- Window 7's block is its whole array at every point. -/
theorem whole1_7 (c : Dev nD) (t : Fin cfg1.N) : (iblk1 V c 7 t : Vec Ideal S128 .f32) = V c main_arg15 := by
  obtain ⟨a0, b0, a1, b1, a2, b2, a3, a4, a5, a6, a7, a8, b8, a9, a10, b10⟩ := index_facts1 t
  funext y
  show V c main_arg15 (((cfg1.win 7).blk t).view.emb y) = V c main_arg15 y
  congr 1
  funext a; apply Fin.ext
  match a with
  | ⟨0, _⟩ => show win1_7.index t (0 : Fin 1) * 128 + 1 * (y 0).val = (y 0).val; omega

/-- Window 8's block is its whole array at every point. -/
theorem whole1_8 (c : Dev nD) (t : Fin cfg1.N) : (iblk1 V c 8 t : Vec Ideal S128x128 .f32) = V c main_arg16 := by
  obtain ⟨a0, b0, a1, b1, a2, b2, a3, a4, a5, a6, a7, a8, b8, a9, a10, b10⟩ := index_facts1 t
  funext y
  show V c main_arg16 (((cfg1.win 8).blk t).view.emb y) = V c main_arg16 y
  congr 1
  funext a; apply Fin.ext
  match a with
  | ⟨0, _⟩ => show win1_8.index t (0 : Fin 2) * 128 + 1 * (y 0).val = (y 0).val; omega
  | ⟨1, _⟩ => show win1_8.index t (1 : Fin 2) * 128 + 1 * (y 1).val = (y 1).val; omega

/-- Window 9's block is its whole array at every point. -/
theorem whole1_9 (c : Dev nD) (t : Fin cfg1.N) : (iblk1 V c 9 t : Vec Ideal S128 .f32) = V c main_arg17 := by
  obtain ⟨a0, b0, a1, b1, a2, b2, a3, a4, a5, a6, a7, a8, b8, a9, a10, b10⟩ := index_facts1 t
  funext y
  show V c main_arg17 (((cfg1.win 9).blk t).view.emb y) = V c main_arg17 y
  congr 1
  funext a; apply Fin.ext
  match a with
  | ⟨0, _⟩ => show win1_9.index t (0 : Fin 1) * 128 + 1 * (y 0).val = (y 0).val; omega

/-- WHAT POINT `t` WRITES BACK is block `t` of `edgeMlp` of the arrays as the region finds them. -/
theorem flushed1 (c : Dev nD) (t : Fin cfg1.N) :
    (dat1 (F := Ideal) V c).flushed 10 t = ((cfg1.win 10).blk t).view.read (Elt Ideal)
      (edgeMlp (V c main_v34) (V c main_v41) (V c main_arg10) (V c main_arg11) (V c main_arg12) (V c main_arg13)
        (V c main_arg14) (V c main_arg15) (V c main_arg16) (V c main_arg17)) := by
  show (cfg1.win 10).cut (grid1.coords t) ((dat1 V c).after 10 t) = _
  rw [after1_10]
  unfold out1_10
  rw [View.canon_unit_zero zeros2]
  simp only [View.ld_unit_zero (S := S3000x128) zeros2, View.ld_unit_zero (S := S128x256) zeros2,
    View.ld_unit_zero (S := S128x128) zeros2, View.ld_unit_zero (S := S128) zeros1]
  have ht : t.val < 200 := lt_of_lt_of_eq t.isLt N_1
  funext j
  show _ = edgeMlp (V c main_v34) (V c main_v41) (V c main_arg10) (V c main_arg11) (V c main_arg12) (V c main_arg13)
        (V c main_arg14) (V c main_arg15) (V c main_arg16) (V c main_arg17) (((cfg1.win 10).blk t).view.emb j)
  exact payload_of_blocks1 (V c main_v34) (V c main_v41) (V c main_arg10) (V c main_arg11) (V c main_arg12) (V c main_arg13)
    (V c main_arg14) (V c main_arg15) (V c main_arg16) (V c main_arg17) _ _ _ _ _ _ _ _ _ _
    (((cfg1.win 10).blk t).view.emb) (fun p => ⟨t.val * 3000 + p.val, by have := p.isLt; omega⟩)
    (out_rows1 t ht) (in_rows1_0 V c t) (in_rows1_1 V c t) (whole1_2 V c t) (whole1_3 V c t) (whole1_4 V c t)
    (whole1_5 V c t) (whole1_6 V c t) (whole1_7 V c t) (whole1_8 V c t) (whole1_9 V c t) j

/-- An index of the output array is in point `t`'s block iff each coordinate is in the block's range on its axis. -/
theorem mem_block1 (t : Fin cfg1.N) (i : S600000x128.Idx) :
    i ∈ ((cfg1.win 10).blk t).view.set ↔ ∀ a : Fin 2, win1_10.index t a * S3000x128.size a ≤ (i a).val
      ∧ (i a).val < win1_10.index t a * S3000x128.size a + S3000x128.size a := by
  show i ∈ ((View.whole main_v42).slice (win1_10.rect t)).set ↔ _
  rw [View.set_slice_whole, Rect.mem_set_unit]
  exact Iff.rfl

/-- Row `r` of the output array is in the block of point `r / 3000`, which is written back. -/
theorem cover1 (i : S600000x128.Idx) :
    ∃ t : Fin cfg1.N, (cfg1.win 10).flush t = true ∧ i ∈ ((cfg1.win 10).blk t).view.set := by
  have hi0 : (i 0).val < 600000 := (i 0).isLt
  have hi1 : (i 1).val < 128 := (i 1).isLt
  obtain ⟨t, ht⟩ : ∃ t : Fin cfg1.N, t.val = (i 0).val / 3000 :=
    ⟨⟨(i 0).val / 3000, lt_of_lt_of_eq (by omega : (i 0).val / 3000 < 200) N_1.symm⟩, rfl⟩
  obtain ⟨-, -, -, -, -, -, -, -, -, -, -, -, -, -, a10, b10⟩ := index_facts1 t
  refine ⟨t, flush1_10 t, ?_⟩
  rw [mem_block1]
  intro a
  match a with
  | ⟨0, _⟩ => show win1_10.index t (0 : Fin 2) * 3000 ≤ (i 0).val ∧ (i 0).val < win1_10.index t (0 : Fin 2) * 3000 + 3000; omega
  | ⟨1, _⟩ => show win1_10.index t (1 : Fin 2) * 128 ≤ (i 1).val ∧ (i 1).val < win1_10.index t (1 : Fin 2) * 128 + 128; omega

/-- Region 1's output array after the region, from the region-entry contents of its ten input arrays. -/
theorem region1_array (c : Dev nD) :
    (dat1 (F := Ideal) V c).arrAt 10 cfg1.N
      = edgeMlp (V c main_v34) (V c main_v41) (V c main_arg10) (V c main_arg11) (V c main_arg12) (V c main_arg13)
          (V c main_arg14) (V c main_arg15) (V c main_arg16) (V c main_arg17) :=
  (dat1 (F := Ideal) V c).arrAt_eq_of_cover 10 _ (fun t _ => flushed1 V c t) cover1

end Cert.KernelIdeal.RegionValue

end
-- ==== Proof.LibTypedRef.lean ====
/-
  Typed references of module-local functions, read back.

  An operation of a function the program calls writes its result through a typed reference: the buffer
  together with an equation saying that the buffer's type is the value's. Writing transports contents of the
  value's type to the buffer's type along that equation, reading transports them back; so what one operation
  wrote and the next reads back through the same typed reference is the value itself. Stated once for an
  arbitrary typed reference (the equation is substituted away), this cancels every write-then-read pair inside
  a chain of such operations by rewriting, whatever the values are, leaving one transport at each end of the
  chain — where, for a literal buffer, it is the identity on any contents by computation.
-/
import Idealize.ShloMosaic.Lib.StableHlo

noncomputable section

namespace Idealize.ShloMosaic.TypedRef

open Idealize.ShloMosaic Idealize.ShloMosaic.StableHlo

/-- Contents written through a typed reference and read back through it are the contents. -/
theorem ofBuf_toBuf {sig : RefSig} {Val : EltTy → Type} {T : BufTy} (x : TRef sig T) (z : T.Contents Val) :
    x.ofBuf (x.toBuf z) = z := by
  obtain ⟨r, h, h2, h3⟩ := x
  subst h
  rfl

/-- Contents read through a typed reference and written back through it are the contents. -/
theorem toBuf_ofBuf {sig : RefSig} {Val : EltTy → Type} {T : BufTy} (x : TRef sig T) (v : x.ref.ty.Contents Val) :
    x.toBuf (x.ofBuf v) = v := by
  obtain ⟨r, h, h2, h3⟩ := x
  subst h
  rfl

end Idealize.ShloMosaic.TypedRef

end
-- ==== Proof.KernelValue.lean ====
/-
  The value of the idealized kernel's result buffer: `net` of the argument arrays.

  The program computes the network in eight stretches — host operations, a pipelined region, host operations, …, — and
  what a buffer holds after each stretch is read back here stretch by stretch: a region's output array is `edgeMlp` of
  the arrays the region was entered with, a host stretch's results are its operations applied to what the stretch found,
  and a buffer no operation writes holds what it held.
-/
import proofs.«103682_j85873576117019_1_alg».proof.Proof.Gen.KernelIdeal.Frame
import proofs.«103682_j85873576117019_1_alg».proof.Proof.EdgeRow
import proofs.«103682_j85873576117019_1_alg».proof.Proof.Network
import proofs.«103682_j85873576117019_1_alg».proof.Proof.RegionValue
import proofs.«103682_j85873576117019_1_alg».proof.Proof.LibTypedRef
import Idealize.ShloMosaic.Lib.StableHlo.Run

set_option maxRecDepth 16384

noncomputable section

namespace Cert.KernelIdeal.Net

open Cert.KernelIdeal Cert.KernelIdeal.Gen
open Idealize.ShloMosaic Idealize.ShloMosaic.TcCoe Idealize.SL.Sem Idealize.ShloMosaic.StableHlo
open Idealize.ShloMosaic.EdgeConv

/-! ## The buffers after each stretch -/

variable (m : (ℓ : Loc nD τ sig) → Buf (Elt Ideal) ℓ) (ρ : Dev nD → PrngReg) (c : Dev nD)

/-- Reads a buffer after the first stretch of host operations from the launch memory. -/
local macro "read_first" : tactic =>
  `(tactic| (dsimp only [W1]; after_results_simp))

/-- Reads a buffer at the second region's entry from the first region's exit, through the four stretches between. -/
local macro "read_between" : tactic =>
  `(tactic| (dsimp only [W6]; after_results_simp))

theorem first_dst : W1 m ρ c (Proc.devRef .tc main_v3) = dstIdx (m ((c : Thread nD τ).loc main_arg1)) := by
  read_first; rfl

theorem first_src : W1 m ρ c (Proc.devRef .tc main_v1) = srcIdx (m ((c : Thread nD τ).loc main_arg1)) := by
  read_first; rfl

theorem first_xi : W1 m ρ c (Proc.devRef .tc main_v10)
    = gatherRows (m ((c : Thread nD τ).loc main_arg0)) (dstIdx (m ((c : Thread nD τ).loc main_arg1))) := by
  read_first; rfl

theorem first_xj : W1 m ρ c (Proc.devRef .tc main_v17)
    = gatherRows (m ((c : Thread nD τ).loc main_arg0)) (srcIdx (m ((c : Thread nD τ).loc main_arg1))) := by
  read_first; rfl

/-! ### The first layer's weights, which the first stretch does not write -/

theorem first_arg2 : W1 m ρ c (Proc.devRef .tc main_arg2) = m ((c : Thread nD τ).loc main_arg2) := by read_first <;> rfl
theorem first_arg3 : W1 m ρ c (Proc.devRef .tc main_arg3) = m ((c : Thread nD τ).loc main_arg3) := by read_first <;> rfl
theorem first_arg4 : W1 m ρ c (Proc.devRef .tc main_arg4) = m ((c : Thread nD τ).loc main_arg4) := by read_first <;> rfl
theorem first_arg5 : W1 m ρ c (Proc.devRef .tc main_arg5) = m ((c : Thread nD τ).loc main_arg5) := by read_first <;> rfl
theorem first_arg6 : W1 m ρ c (Proc.devRef .tc main_arg6) = m ((c : Thread nD τ).loc main_arg6) := by read_first <;> rfl
theorem first_arg7 : W1 m ρ c (Proc.devRef .tc main_arg7) = m ((c : Thread nD τ).loc main_arg7) := by read_first <;> rfl
theorem first_arg8 : W1 m ρ c (Proc.devRef .tc main_arg8) = m ((c : Thread nD τ).loc main_arg8) := by read_first <;> rfl
theorem first_arg9 : W1 m ρ c (Proc.devRef .tc main_arg9) = m ((c : Thread nD τ).loc main_arg9) := by read_first <;> rfl

/-! ### The first region -/

/-- The first region leaves the first layer's messages in its output array. -/
theorem region0_out : W2 m ρ c (Proc.devRef .tc main_v18)
    = edgeMlp (W1 m ρ c (Proc.devRef .tc main_v10)) (W1 m ρ c (Proc.devRef .tc main_v17)) (W1 m ρ c (Proc.devRef .tc main_arg2))
        (W1 m ρ c (Proc.devRef .tc main_arg3)) (W1 m ρ c (Proc.devRef .tc main_arg4)) (W1 m ρ c (Proc.devRef .tc main_arg5))
        (W1 m ρ c (Proc.devRef .tc main_arg6)) (W1 m ρ c (Proc.devRef .tc main_arg7)) (W1 m ρ c (Proc.devRef .tc main_arg8))
        (W1 m ρ c (Proc.devRef .tc main_arg9)) :=
  (W2_arr m ρ c 10).trans (RegionValue.region0_array (V1 m ρ) c)

/-- The two index vectors are not arrays of the first region: it leaves them as entered. -/
theorem region0_dst : W2 m ρ c (Proc.devRef .tc main_v3) = W1 m ρ c (Proc.devRef .tc main_v3) := W2_of_ne m ρ c main_v3 (by decide)
theorem region0_src : W2 m ρ c (Proc.devRef .tc main_v1) = W1 m ρ c (Proc.devRef .tc main_v1) := W2_of_ne m ρ c main_v1 (by decide)

/-! ### Between the regions -/

/-- The second layer's target rows: gathered from the normalised sum of the first layer's messages. -/
theorem second_xi : W6 m ρ c (Proc.devRef .tc main_v34)
    = gatherRows (unitRows (segmentSum (W2 m ρ c (Proc.devRef .tc main_v3)) (W2 m ρ c (Proc.devRef .tc main_v18)))) (W2 m ρ c (Proc.devRef .tc main_v3)) := by
  read_between
  simp only [TypedRef.ofBuf_toBuf]
  rfl

/-- The second layer's source rows. -/
theorem second_xj : W6 m ρ c (Proc.devRef .tc main_v41)
    = gatherRows (unitRows (segmentSum (W2 m ρ c (Proc.devRef .tc main_v3)) (W2 m ρ c (Proc.devRef .tc main_v18)))) (W2 m ρ c (Proc.devRef .tc main_v1)) := by
  read_between
  simp only [TypedRef.ofBuf_toBuf]
  rfl

/-- No operation between the regions writes the target index vector. -/
theorem second_dst : W6 m ρ c (Proc.devRef .tc main_v3) = W2 m ρ c (Proc.devRef .tc main_v3) := by read_between

-- A weight of the second layer at the second region's entry is the launch memory's: no host operation writes it and
-- it is no array of the first region.
set_option hygiene false in
local macro "weight_as_launched" b:ident : tactic =>
  `(tactic| (
    refine (show W6 m ρ c (Proc.devRef .tc $b) = W2 m ρ c (Proc.devRef .tc $b) by (dsimp only [W6]; after_results_simp)).trans ?_
    refine (W2_of_ne m ρ c $b (by decide)).trans ?_
    dsimp only [W1]
    after_results_simp <;> rfl))

theorem second_arg10 : W6 m ρ c (Proc.devRef .tc main_arg10) = m ((c : Thread nD τ).loc main_arg10) := by weight_as_launched main_arg10
theorem second_arg11 : W6 m ρ c (Proc.devRef .tc main_arg11) = m ((c : Thread nD τ).loc main_arg11) := by weight_as_launched main_arg11
theorem second_arg12 : W6 m ρ c (Proc.devRef .tc main_arg12) = m ((c : Thread nD τ).loc main_arg12) := by weight_as_launched main_arg12
theorem second_arg13 : W6 m ρ c (Proc.devRef .tc main_arg13) = m ((c : Thread nD τ).loc main_arg13) := by weight_as_launched main_arg13
theorem second_arg14 : W6 m ρ c (Proc.devRef .tc main_arg14) = m ((c : Thread nD τ).loc main_arg14) := by weight_as_launched main_arg14
theorem second_arg15 : W6 m ρ c (Proc.devRef .tc main_arg15) = m ((c : Thread nD τ).loc main_arg15) := by weight_as_launched main_arg15
theorem second_arg16 : W6 m ρ c (Proc.devRef .tc main_arg16) = m ((c : Thread nD τ).loc main_arg16) := by weight_as_launched main_arg16
theorem second_arg17 : W6 m ρ c (Proc.devRef .tc main_arg17) = m ((c : Thread nD τ).loc main_arg17) := by weight_as_launched main_arg17

/-! ### The second region and the last stretch -/

/-- The second region leaves the second layer's messages in its output array. -/
theorem region1_out : W7 m ρ c (Proc.devRef .tc main_v42)
    = edgeMlp (W6 m ρ c (Proc.devRef .tc main_v34)) (W6 m ρ c (Proc.devRef .tc main_v41)) (W6 m ρ c (Proc.devRef .tc main_arg10))
        (W6 m ρ c (Proc.devRef .tc main_arg11)) (W6 m ρ c (Proc.devRef .tc main_arg12)) (W6 m ρ c (Proc.devRef .tc main_arg13))
        (W6 m ρ c (Proc.devRef .tc main_arg14)) (W6 m ρ c (Proc.devRef .tc main_arg15)) (W6 m ρ c (Proc.devRef .tc main_arg16))
        (W6 m ρ c (Proc.devRef .tc main_arg17)) :=
  (W7_arr m ρ c 10).trans (RegionValue.region1_array (V6 m ρ) c)

theorem region1_dst : W7 m ρ c (Proc.devRef .tc main_v3) = W6 m ρ c (Proc.devRef .tc main_v3) := W7_of_ne m ρ c main_v3 (by decide)

/-- The result buffer after the last stretch: the second layer's messages summed into their target nodes. -/
theorem last_out : W8 m ρ c (Proc.devRef .tc main_v45)
    = segmentSum (W7 m ρ c (Proc.devRef .tc main_v3)) (W7 m ρ c (Proc.devRef .tc main_v42)) := by
  dsimp only [W8]
  after_results_simp
  rfl

/-! ## The result -/

/-- The result buffer at the end of @main is `net` of the argument arrays as launched. -/
theorem result_eq : W8 m ρ c (Proc.devRef .tc main_v45)
    = net (m ((c : Thread nD τ).loc main_arg0)) (m ((c : Thread nD τ).loc main_arg1)) (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) (m ((c : Thread nD τ).loc main_arg8)) (m ((c : Thread nD τ).loc main_arg9))
        (m ((c : Thread nD τ).loc main_arg10)) (m ((c : Thread nD τ).loc main_arg11)) (m ((c : Thread nD τ).loc main_arg12)) (m ((c : Thread nD τ).loc main_arg13)) (m ((c : Thread nD τ).loc main_arg14))
        (m ((c : Thread nD τ).loc main_arg15)) (m ((c : Thread nD τ).loc main_arg16)) (m ((c : Thread nD τ).loc main_arg17)) := by
  rw [last_out, region1_out, region1_dst, second_xi, second_xj, second_dst,
    second_arg10, second_arg11, second_arg12, second_arg13, second_arg14, second_arg15, second_arg16, second_arg17,
    region0_out, region0_dst, region0_src, first_xi, first_xj, first_dst, first_src,
    first_arg2, first_arg3, first_arg4, first_arg5, first_arg6, first_arg7, first_arg8, first_arg9]
  rfl

end Cert.KernelIdeal.Net

end
-- ==== Proof.RefLayers.lean ====
/-
  The reference's two EdgeConv layers, each read as the array of per-edge messages.
-/
import proofs.«103682_j85873576117019_1_alg».proof.Proof.Gen.ReferenceIdeal.Read
import proofs.«103682_j85873576117019_1_alg».proof.Proof.EdgeRow

noncomputable section

namespace Cert.ReferenceIdeal.Layers

open Cert.ReferenceIdeal Cert.ReferenceIdeal.Read
open Idealize.ShloMosaic Idealize.ShloMosaic.TcCoe
open Idealize.ShloMosaic.ValueIdx Idealize.ShloMosaic.Rowwise Idealize.ShloMosaic.EdgeConv

/-- The stretch of an EdgeConv layer between the two gathered arrays and the second bias, spelled operation by
    operation: join `[A, B − A]`, multiply by `Waᵀ`, add `ba`, take the maximum with zero, subtract `rm`, multiply by
    `g · rsqrt (rv + ε)`, add `be`, multiply by `Wbᵀ`, add `bb`, every vector laid as a one-row array and repeated
    down the rows. Each operation acts on every row by itself, so row `p` of the result is `edgeRow` of rows `p` of `A`
    and `B`. Both products are plain `[600000, K] × [K, 128]` contractions. -/
theorem edgeMlp_of_stages (A B : FVec Ideal S600000x128 .f32) (wa : FVec Ideal S128x256 .f32)
    (ba g be rm rv : FVec Ideal S128 .f32) (wb : FVec Ideal S128x128 .f32) (bb : FVec Ideal S128 .f32)
    (hcat : Shape.Concatenates [S600000x128, S600000x128] S600000x256 1)
    (htA : S128x256.Transposes [1, 0] S256x128)
    (hv : S128.BroadcastsInDim S1x128 (![1] : Fin 1 → Fin S1x128.rank))
    (hr : S1x128.BroadcastsInDim S600000x128 (![0, 1] : Fin 2 → Fin S600000x128.rank))
    (hz : S_.BroadcastsInDim S600000x128 (![] : Fin 0 → Fin S600000x128.rank))
    (he : S_.BroadcastsInDim S128 (![] : Fin 0 → Fin S128.rank))
    (htB : S128x128.Transposes [1, 0] S128x128)
    (d₁ : DotDims S600000x256 S256x128 S600000x128) (hd₁ : d₁ = DotDims.plain 600000 256 128)
    (d₂ : DotDims S600000x128 S128x128 S600000x128) (hd₂ : d₂ = DotDims.plain 600000 128 128) :
    addf (Host.dotGeneral d₂ none
        (addf (mulf (subf (maximumf (addf (Host.dotGeneral d₁ none
                  (concatenate S600000x256 1 [⟨S600000x128, A⟩, ⟨S600000x128, subf B A⟩] hcat)
                  (transpose S256x128 [1, 0] wa htA))
                (broadcastInDim S600000x128 ![0, 1] hr (broadcastInDim S1x128 ![1] hv ba)))
              (broadcastInDim S600000x128 ![] hz (constant S_ .f32 0x00000000#32)))
            (broadcastInDim S600000x128 ![0, 1] hr (broadcastInDim S1x128 ![1] hv rm)))
          (broadcastInDim S600000x128 ![0, 1] hr (broadcastInDim S1x128 ![1] hv
            (mulf g (Host.rsqrt (addf rv (broadcastInDim S128 ![] he (constant S_ .f32 0x3727C5AC#32))))))))
          (broadcastInDim S600000x128 ![0, 1] hr (broadcastInDim S1x128 ![1] hv be)))
        (transpose S128x128 [1, 0] wb htB))
      (broadcastInDim S600000x128 ![0, 1] hr (broadcastInDim S1x128 ![1] hv bb))
    = edgeMlp A B wa ba g be rm rv wb bb := by
  subst hd₁ hd₂
  refine eq_edgeMlp_of_rows _ _ _ _ _ _ _ _ _ _ _ (fun p => ?_)
  -- from the outside in: the second bias, the second product, the batch normalisation, the ReLU, the first product
  rw [row_addf, row_dotGeneral, mat_transpose, row_addf, row_mulf, row_subf, row_maximumf_scalarConstant, row_addf,
    row_dotGeneral, mat_transpose, row_concat, row_subf]
  -- every bias-like array holds its vector in each row
  simp only [row_broadcastInDim_row _ hr p, row_vector_as_row _ hv]
  -- the joined row against `Waᵀ` is the two blocks of `Wa`'s columns; the factor entry by entry
  rw [hidden_of_join, vec_mulf, vec_hostRsqrt, vec_addf, vec_scalarConstant _ he]
  rfl

variable (x0 : (⟨S50000x128, .f32⟩ : BufTy).Contents (Elt Ideal)) (x1 : (⟨S2x600000, .i32⟩ : BufTy).Contents (Elt Ideal))
  (x2 : (⟨S128x256, .f32⟩ : BufTy).Contents (Elt Ideal)) (x3 x4 x5 x6 x7 : (⟨S128, .f32⟩ : BufTy).Contents (Elt Ideal))
  (x8 : (⟨S128x128, .f32⟩ : BufTy).Contents (Elt Ideal)) (x9 : (⟨S128, .f32⟩ : BufTy).Contents (Elt Ideal))
  (x10 : (⟨S128x256, .f32⟩ : BufTy).Contents (Elt Ideal)) (x11 x12 x13 x14 x15 : (⟨S128, .f32⟩ : BufTy).Contents (Elt Ideal))
  (x16 : (⟨S128x128, .f32⟩ : BufTy).Contents (Elt Ideal)) (x17 : (⟨S128, .f32⟩ : BufTy).Contents (Elt Ideal))

/-- The first layer's messages: the stretch from the two gathers to the second bias. -/
theorem layer1 :
    val_main_v43 (F := Ideal) x0 x1 x2 x3 x4 x5 x6 x7 x8 x9
      = edgeMlp (val_main_v10 (F := Ideal) x0 x1) (val_main_v17 (F := Ideal) x0 x1) x2 x3 x4 x5 x6 x7 x8 x9 := by
  unfold val_main_v43 val_main_v42 val_main_v41 val_main_v40 val_main_v39 val_main_v38 val_main_v37 val_main_v36
    val_main_v35 val_main_v34 val_main_v33 val_main_v32 val_main_v31 val_main_v30 val_main_v29 val_main_cst val_main_v28
    val_main_v27 val_main_v26 val_main_v25 val_main_call0_v0 val_main_call0_cst val_main_v24 val_main_v23 val_main_v22
    val_main_v21 val_main_v20 val_main_v19 val_main_v18
  exact edgeMlp_of_stages _ _ x2 x3 x4 x5 x6 x7 x8 x9 _ _ _ _ _ _ _ _ rfl _ rfl

/-- The second layer's messages. -/
theorem layer2 :
    val_main_v92 (F := Ideal) x0 x1 x2 x3 x4 x5 x6 x7 x8 x9 x10 x11 x12 x13 x14 x15 x16 x17
      = edgeMlp (val_main_v59 (F := Ideal) x0 x1 x2 x3 x4 x5 x6 x7 x8 x9) (val_main_v66 (F := Ideal) x0 x1 x2 x3 x4 x5 x6 x7 x8 x9)
          x10 x11 x12 x13 x14 x15 x16 x17 := by
  unfold val_main_v92 val_main_v91 val_main_v90 val_main_v89 val_main_v88 val_main_v87 val_main_v86 val_main_v85
    val_main_v84 val_main_v83 val_main_v82 val_main_v81 val_main_v80 val_main_v79 val_main_v78 val_main_cst_9 val_main_v77
    val_main_v76 val_main_v75 val_main_v74 val_main_call3_v0 val_main_call3_cst val_main_v73 val_main_v72 val_main_v71
    val_main_v70 val_main_v69 val_main_v68 val_main_v67
  exact edgeMlp_of_stages _ _ x10 x11 x12 x13 x14 x15 x16 x17 _ _ _ _ _ _ _ _ rfl _ rfl

end Cert.ReferenceIdeal.Layers

end
-- ==== Proof.RefNet.lean ====
/-
  The reference computes `net`: its stages, read as the network's pieces.

  The reference's program is one list of host operations; stage by stage it is the same gathers, the same sum into target
  nodes and the same row normalisation as the kernel's program, written with the same literals, around the two stretches
  that compute a layer's messages, which are `edgeMlp` (`Layers.layer1`, `Layers.layer2`).
-/
import proofs.«103682_j85873576117019_1_alg».proof.Proof.Gen.ReferenceIdeal.Read
import proofs.«103682_j85873576117019_1_alg».proof.Proof.RefLayers
import proofs.«103682_j85873576117019_1_alg».proof.Proof.Network

noncomputable section

namespace Cert.ReferenceIdeal.NetEq

open Cert.ReferenceIdeal Cert.ReferenceIdeal.Read
open Idealize.ShloMosaic Idealize.ShloMosaic.TcCoe
open Idealize.ShloMosaic.EdgeConv
open Cert.KernelIdeal.Net (net layer unitRows clipped segmentSum gatherRows wrapped dstIdx srcIdx)

variable (x0 : (⟨S50000x128, .f32⟩ : BufTy).Contents (Elt Ideal)) (x1 : (⟨S2x600000, .i32⟩ : BufTy).Contents (Elt Ideal))
  (x2 : (⟨S128x256, .f32⟩ : BufTy).Contents (Elt Ideal)) (x3 x4 x5 x6 x7 : (⟨S128, .f32⟩ : BufTy).Contents (Elt Ideal))
  (x8 : (⟨S128x128, .f32⟩ : BufTy).Contents (Elt Ideal)) (x9 : (⟨S128, .f32⟩ : BufTy).Contents (Elt Ideal))
  (x10 : (⟨S128x256, .f32⟩ : BufTy).Contents (Elt Ideal)) (x11 x12 x13 x14 x15 : (⟨S128, .f32⟩ : BufTy).Contents (Elt Ideal))
  (x16 : (⟨S128x128, .f32⟩ : BufTy).Contents (Elt Ideal)) (x17 : (⟨S128, .f32⟩ : BufTy).Contents (Elt Ideal))

/-- The first layer's target rows. -/
theorem xi_first : val_main_v10 (F := Ideal) x0 x1 = gatherRows x0 (dstIdx x1) := rfl

/-- The first layer's source rows. -/
theorem xj_first : val_main_v17 (F := Ideal) x0 x1 = gatherRows x0 (srcIdx x1) := rfl

/-- The first layer's messages summed into their target nodes. -/
theorem sum_first : val_main_v46 (F := Ideal) x0 x1 x2 x3 x4 x5 x6 x7 x8 x9
    = segmentSum (dstIdx x1) (val_main_v43 (F := Ideal) x0 x1 x2 x3 x4 x5 x6 x7 x8 x9) := rfl

/-- The rows clipped and normalised between the layers. -/
theorem rows_between : val_main_v52 (F := Ideal) x0 x1 x2 x3 x4 x5 x6 x7 x8 x9
    = unitRows (val_main_v46 (F := Ideal) x0 x1 x2 x3 x4 x5 x6 x7 x8 x9) := rfl

/-- The second layer's target rows. -/
theorem xi_second : val_main_v59 (F := Ideal) x0 x1 x2 x3 x4 x5 x6 x7 x8 x9
    = gatherRows (val_main_v52 (F := Ideal) x0 x1 x2 x3 x4 x5 x6 x7 x8 x9) (dstIdx x1) := rfl

/-- The second layer's source rows. -/
theorem xj_second : val_main_v66 (F := Ideal) x0 x1 x2 x3 x4 x5 x6 x7 x8 x9
    = gatherRows (val_main_v52 (F := Ideal) x0 x1 x2 x3 x4 x5 x6 x7 x8 x9) (srcIdx x1) := rfl

/-- The second layer's messages summed into their target nodes. -/
theorem sum_second : val_main_v95 (F := Ideal) x0 x1 x2 x3 x4 x5 x6 x7 x8 x9 x10 x11 x12 x13 x14 x15 x16 x17
    = segmentSum (dstIdx x1) (val_main_v92 (F := Ideal) x0 x1 x2 x3 x4 x5 x6 x7 x8 x9 x10 x11 x12 x13 x14 x15 x16 x17) := rfl

/-- The reference's result is `net` of its arguments. -/
theorem result_eq : val_main_v95 (F := Ideal) x0 x1 x2 x3 x4 x5 x6 x7 x8 x9 x10 x11 x12 x13 x14 x15 x16 x17 = net x0 x1 x2 x3 x4 x5 x6 x7 x8 x9 x10 x11 x12 x13 x14 x15 x16 x17 := by
  rw [sum_second, Layers.layer2, xi_second, xj_second, rows_between, sum_first, Layers.layer1, xi_first, xj_first]
  rfl

end Cert.ReferenceIdeal.NetEq

end
-- ==== Proof.lean ====
/-
  An EdgeConv encoder (two message-passing layers over 600000 edges and 50000 nodes of 128 features): the Pallas kernel
  and its jnp reference compute the same function of their arguments over the extended reals.

  One layer gathers the feature rows `xi`, `xj` of every edge's target and source node, computes the edge's message
      ((max (xi · Wa[:, :128]ᵀ + (xj − xi) · Wa[:, 128:]ᵀ + ba) 0 − rm) · (g · rsqrt (rv + ε)) + be) · Wbᵀ + bb
  and sums the messages into their target nodes; between the layers every node's row is clipped at zero and divided by
  the larger of its Euclidean norm and 1e-12. The kernel computes the messages in a pipelined region, 3000 edges per grid
  point, with the first linear map as two products over the two halves of `Wa`'s columns; the reference joins
  `[xi, xj − xi]` into one row of 256 and multiplies by `Waᵀ`. Both are the same finite sum re-indexed (no law that
  needs finiteness is used, so the precondition is never opened), the gathers, the sums into nodes and the row
  normalisation are the same operations with the same literals in both programs, and a change of float format is the
  identity on the extended reals. So both programs end with their result at `Net.net` of the argument arrays.

  The three frames are the generated ones (the reference's is its generated run with the result dropped); the
  idealization rewrote no operation, so `preserves` is `True`.
-/
import proofs.«103682_j85873576117019_1_alg».proof.Defs
import proofs.«103682_j85873576117019_1_alg».proof.Proof.Gen.Kernel
import proofs.«103682_j85873576117019_1_alg».proof.Proof.Gen.Kernel.Frame
import proofs.«103682_j85873576117019_1_alg».proof.Proof.Gen.KernelIdeal
import proofs.«103682_j85873576117019_1_alg».proof.Proof.Gen.KernelIdeal.Frame
import proofs.«103682_j85873576117019_1_alg».proof.Proof.Gen.ReferenceIdeal
import proofs.«103682_j85873576117019_1_alg».proof.Proof.Gen.ReferenceIdeal.Run
import proofs.«103682_j85873576117019_1_alg».proof.Proof.Gen.ReferenceIdeal.Read
import proofs.«103682_j85873576117019_1_alg».proof.Proof.Gen.Pre_finite_inputs
import proofs.«103682_j85873576117019_1_alg».proof.Proof.KernelRun
import proofs.«103682_j85873576117019_1_alg».proof.Proof.KernelValue
import proofs.«103682_j85873576117019_1_alg».proof.Proof.RefNet
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- Both idealized programs end with their result at `net` of the argument arrays, which agree. -/
theorem algebraic : Cert.algebraic_KernelIdeal_ReferenceIdeal := by
  intro m ρ m' ρ' _ hagree
  refine ⟨fun c => Cert.KernelIdeal.Gen.W8 m ρ c (Proc.devRef .tc Cert.KernelIdeal.main_v45),
    Cert.KernelIdeal.ValueRun.run_value m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17⟩ := hagree c
  rw [Cert.ReferenceIdeal.Read.val_main_v95_eq, Cert.ReferenceIdeal.NetEq.result_eq, h0, h1, h2, h3, h4, h5, h6, h7, h8, h9, h10, h11, h12, h13, h14, h15, h16, h17]
  exact (Cert.KernelIdeal.Net.result_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
